-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256 .f32) (main_arg5 : FVec F S64x256 .f32) (main_arg6 : FVec F S64 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8192x256 .f32) (main_arg1 : FVec F S512x256 .f32) (main_arg2 : FVec F S512 .f32) (main_arg3 : FVec F S256x512 .f32) (main_arg4 : FVec F S256 .f32) (main_arg5 : FVec F S64x256 .f32) (main_arg6 : FVec F S64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Kernel.lean ====
abbrev S8192x256 : Shape := ⟨2, ![8192, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S8192x64 : Shape := ⟨2, ![8192, 64]⟩
abbrev S1024x256 : Shape := ⟨2, ![1024, 256]⟩
abbrev S1024x64 : Shape := ⟨2, ![1024, 64]⟩
abbrev S1024x512 : Shape := ⟨2, ![1024, 512]⟩
abbrev S1x512 : Shape := ⟨2, ![1, 512]⟩
abbrev S1x256 : Shape := ⟨2, ![1, 256]⟩
abbrev S256x64 : Shape := ⟨2, ![256, 64]⟩
abbrev S1x64 : Shape := ⟨2, ![1, 64]⟩
abbrev S1024 : Shape := ⟨1, ![1024]⟩
abbrev S1024x1 : Shape := ⟨2, ![1024, 1]⟩
abbrev S64x8192 : Shape := ⟨2, ![64, 8192]⟩
abbrev S256x8192 : Shape := ⟨2, ![256, 8192]⟩
abbrev S256x1 : Shape := ⟨2, ![256, 1]⟩
abbrev S1x8192 : Shape := ⟨2, ![1, 8192]⟩

abbrev nBuf : Space → Nat
  | .hbm => 10
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S512x256, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S64x256, .f32⟩
  | .hbm, ⟨6, _⟩ => ⟨S64, .f32⟩
  | .hbm, ⟨7, _⟩ => ⟨S8192x64, .f32⟩
  | .hbm, ⟨8, _⟩ => ⟨S8192x64, .f32⟩
  | .hbm, ⟨9, _⟩ => ⟨S8192x64, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512, .f32⟩
  | .local _ .vmem, ⟨4, _⟩ => ⟨S256x512, .f32⟩
  | .local _ .vmem, ⟨5, _⟩ => ⟨S256, .f32⟩
  | .local _ .vmem, ⟨6, _⟩ => ⟨S64x256, .f32⟩
  | .local _ .vmem, ⟨7, _⟩ => ⟨S64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S256x64, .f32⟩
  | .local _ .vmem, ⟨13, _⟩ => ⟨S256x64, .f32⟩
  | .local _ .vmem, ⟨14, _⟩ => ⟨S8192x64, .f32⟩
  | .local _ .vmem, ⟨15, _⟩ => ⟨S8192x64, .f32⟩
  | .local _ .vmem, ⟨16, _⟩ => ⟨S256x64, .f32⟩
  | .local _ .vmem, ⟨17, _⟩ => ⟨S256x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  transposes_S8192x64_p1_0_S64x8192 : S8192x64.Transposes [1, 0] S64x8192
  natLt_1_32 : 1 < 32
  iota_S256x1_d0_w32 : S256x1.Iotas .tc 32 [0]
  iota_S1x8192_d1_w32 : S1x8192.Iotas .tc 32 [1]
  broadcasts_S256x1_S256x8192 : S256x1.Broadcasts S256x8192
  broadcasts_S1x8192_S256x8192 : S1x8192.Broadcasts S256x8192
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  dot_S1024x256_S256x64_S1024x64_1_0_0_1_n_n_wf : DotDims.WF S1024x256 S256x64 S1024x64 [1] [0] [0] [1] [] []
  dot_S256x64_S64x8192_S256x8192_1_0_0_1_n_n_wf : DotDims.WF S256x64 S64x8192 S256x8192 [1] [0] [0] [1] [] []
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S8192x64.size a
  hwx0_7 : ∀ i : grid0.Coords, EltTy.bits .f32 = 32 ∨ (Rect.block (s := S8192x64) S1024x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S8192x64.size a
  hwx0_8 : ∀ i : grid0.Coords, EltTy.bits .f32 = 32 ∨ (Rect.block (s := S8192x64) S1024x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S8192x64.size a
  hwx1_0 : ∀ i : grid1.Coords, EltTy.bits .f32 = 32 ∨ (Rect.block (s := S8192x64) S256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .f32 = 32 ∨ (Rect.block (s := S8192x64) S8192x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S8192x64.size a
  hwx1_3 : ∀ i : grid1.Coords, EltTy.bits .f32 = 32 ∨ (Rect.block (s := S8192x64) S256x64.size (cc1_transform_3 i) (hinb1_3 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S256x64_S64x8192_S256x8192_1_0_0_1_n_n : DotDims S256x64 S64x8192 S256x8192 where
  lhsContracting := [1]
  rhsContracting := [0]
  lhsNonContracting := [0]
  rhsNonContracting := [1]
  lhsBatch := []
  rhsBatch := []
  wf := dot_S256x64_S64x8192_S256x8192_1_0_0_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_1) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x256 : Shape := ⟨2, ![8192, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S8192x512 : Shape := ⟨2, ![8192, 512]⟩
abbrev S1x512 : Shape := ⟨2, ![1, 512]⟩
abbrev S1x256 : Shape := ⟨2, ![1, 256]⟩
abbrev S256x64 : Shape := ⟨2, ![256, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S512x256, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S64x256, .f32⟩
  | .hbm, ⟨6, _⟩ => ⟨S64, .f32⟩
  | .hbm, ⟨7, _⟩ => ⟨S256x512, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S512x256, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S256x64, .f32⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x64, .f32⟩
  | .hbm, ⟨33, _⟩ => ⟨S8192x64, .f32⟩
  | .hbm, ⟨34, _⟩ => ⟨S64x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .i1⟩
  | .hbm, ⟨40, _⟩ => ⟨S8192x8192, .f32⟩
  | .hbm, ⟨41, _⟩ => ⟨S8192x8192, .i32⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S64x256_S256x64_1_0 : S64x256.Transposes [1, 0] S256x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  dot_S8192x256_S256x512_S8192x512_1_0_0_1_n_n_wf : DotDims.WF S8192x256 S256x512 S8192x512 [1] [0] [0] [1] [] []
  dot_S8192x512_S512x256_S8192x256_1_0_0_1_n_n_wf : DotDims.WF S8192x512 S512x256 S8192x256 [1] [0] [0] [1] [] []
  dot_S8192x256_S256x64_S8192x64_1_0_0_1_n_n_wf : DotDims.WF S8192x256 S256x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KRegion0.lean ====
/- The perceptron call of the program, as one region entered with the core's buffers at contents `V`: what each
   window's staging buffer holds when the body is called at a grid point (the window's block of its array), what the
   body leaves in the two output buffers (its one whole-buffer store each, as a function of the seven input blocks),
   and that the body, run on those buffers, ends having done exactly that. -/
import proofs.«166473_j65481071400810_1_alg».proof.Proof.Gen.Kernel.Launch
import proofs.«166473_j65481071400810_1_alg».proof.Proof.Gen.Kernel.Skeleton
import proofs.«166473_j65481071400810_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: its index map either follows
    the grid or is constant, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: its index map either follows
    the grid or is constant, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: its index map either follows
    the grid or is constant, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: its index map either follows
    the grid or is constant, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: its index map either follows
    the grid or is constant, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not: its index map either follows
    the grid or is constant, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, fetched there or not: its index map either follows
    the grid or is constant, and the body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: every load and store takes its buffer whole. -/

abbrev rc_S1024x256 : Rect S1024x256 := Rect.unit (s := S1024x256) ![0, 0] S1024x256.size inb_S1024x256_S1024x256_0_0
abbrev rc_S512x256 : Rect S512x256 := Rect.unit (s := S512x256) ![0, 0] S512x256.size inb_S512x256_S512x256_0_0
abbrev rc_S512 : Rect S512 := Rect.unit (s := S512) ![0] S512.size inb_S512_S512_0
abbrev rc_S256x512 : Rect S256x512 := Rect.unit (s := S256x512) ![0, 0] S256x512.size inb_S256x512_S256x512_0_0
abbrev rc_S256 : Rect S256 := Rect.unit (s := S256) ![0] S256.size inb_S256_S256_0
abbrev rc_S64x256 : Rect S64x256 := Rect.unit (s := S64x256) ![0, 0] S64x256.size inb_S64x256_S64x256_0_0
abbrev rc_S64 : Rect S64 := Rect.unit (s := S64) ![0] S64.size inb_S64_S64_0
abbrev rc_S1024x64 : Rect S1024x64 := Rect.unit (s := S1024x64) ![0, 0] S1024x64.size inb_S1024x64_S1024x64_0_0

/-- What the body leaves in the first output buffer (the perceptron's output block): its one store's value. -/
def out0_7 (x0 : Vec F S1024x256 .f32) (x1 : Vec F S512x256 .f32) (x2 : Vec F S512 .f32) (x3 : Vec F S256x512 .f32) (x4 : Vec F S256 .f32) (x5 : Vec F S64x256 .f32) (x6 : Vec F S64 .f32) : Vec F S1024x64 .f32 :=
  View.canon [⟨rc_S1024x64, k0_pay1 (View.ld x0 rc_S1024x256) (View.ld x1 rc_S512x256) (View.ld x2 rc_S512) (View.ld x3 rc_S256x512) (View.ld x4 rc_S256) (View.ld x5 rc_S64x256) (View.ld x6 rc_S64)⟩]

/-- What it leaves in the second (the normalized block). -/
def out0_8 (x0 : Vec F S1024x256 .f32) (x1 : Vec F S512x256 .f32) (x2 : Vec F S512 .f32) (x3 : Vec F S256x512 .f32) (x4 : Vec F S256 .f32) (x5 : Vec F S64x256 .f32) (x6 : Vec F S64 .f32) : Vec F S1024x64 .f32 :=
  View.canon [⟨rc_S1024x64, k0_pay2 (View.ld x0 rc_S1024x256) (View.ld x1 rc_S512x256) (View.ld x2 rc_S512) (View.ld x3 rc_S256x512) (View.ld x4 rc_S256) (View.ld x5 rc_S64x256) (View.ld x6 rc_S64)⟩]

/-- A whole-buffer store covers the buffer. -/
theorem cover0 (p0 : Vec F S1024x64 .f32) (y : S1024x64.Idx) :
    ∃ pc ∈ ([⟨rc_S1024x64, p0⟩] : List (View.Piece (Elt F) S1024x64 .f32)), y ∈ pc.1.set :=
  View.cover_of_tiled [⟨rc_S1024x64, p0⟩] S1024x64.size (by rfl) y

set_option maxHeartbeats 4000000 in
/-- The body on whole staging buffers — the inputs' at read contents `xW`, the outputs' at anything — runs to the
    continuation holding the inputs' as they were and the outputs' at `out0_7`, `out0_8` of the inputs'. -/
theorem sound_kernel0 (c : Dev nD) (E : Set ℕ) (i : grid0.Coords) (arg1 : Memref sig .tc .vmem S1024x256 .f32) (harg1 : arg1.IsWhole) (arg2 : Memref sig .tc .vmem S512x256 .f32) (harg2 : arg2.IsWhole) (arg3 : Memref sig .tc .vmem S512 .f32) (harg3 : arg3.IsWhole) (arg4 : Memref sig .tc .vmem S256x512 .f32) (harg4 : arg4.IsWhole) (arg5 : Memref sig .tc .vmem S256 .f32) (harg5 : arg5.IsWhole) (arg6 : Memref sig .tc .vmem S64x256 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S1024x64 .f32) (harg9 : arg9.IsWhole)
    (x0 : Vec F S1024x256 .f32) (x1 : Vec F S512x256 .f32) (x2 : Vec F S512 .f32) (x3 : Vec F S256x512 .f32) (x4 : Vec F S256 .f32) (x5 : Vec F S64x256 .f32) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The pipeline's proof data -/

/-- The region's proof data on core `c`: the arrays as the region finds them; after the body at point `t` each input's
    buffer at its block and each output's at the body's function of the input blocks; the invariant only the core's
    scoped rest and generator register, untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KRegion1.lean ====
/- The pairwise call of the program, as one region entered with the core's buffers at contents `V`: the windows'
   blocks, what the body leaves in the output buffer (one whole-buffer store, a function of the grid point and the
   three input blocks), the body's run, and the proof data. Two of its input windows read ONE array (the normalized
   rows: a 256-row block of them as queries, and all of them as keys): each window holds half of that array's share,
   and the halves are dealt out of the whole array at the region's entry and joined again at its exit. -/
import proofs.«166473_j65481071400810_1_alg».proof.Proof.Gen.Kernel.Launch
import proofs.«166473_j65481071400810_1_alg».proof.Proof.Gen.Kernel.Skeleton
import proofs.«166473_j65481071400810_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: every load and store takes its buffer whole. -/

abbrev rc_S256x64 : Rect S256x64 := Rect.unit (s := S256x64) ![0, 0] S256x64.size inb_S256x64_S256x64_0_0
abbrev rc_S8192x64 : Rect S8192x64 := Rect.unit (s := S8192x64) ![0, 0] S8192x64.size inb_S8192x64_S8192x64_0_0

/-- What the body leaves in the output buffer at grid coordinates `i`: its one store's value. -/
def out1_3 (i : grid1.Coords) (x0 : Vec F S256x64 .f32) (x1 : Vec F S8192x64 .f32) (x2 : Vec F S8192x64 .f32) : Vec F S256x64 .f32 :=
  View.canon [⟨rc_S256x64, k1_pay1 i (View.ld x0 rc_S256x64) (View.ld x1 rc_S8192x64) (View.ld x2 rc_S8192x64)⟩]

/-- A whole-buffer store covers the buffer. -/
theorem cover1 (p0 : Vec F S256x64 .f32) (y : S256x64.Idx) :
    ∃ pc ∈ ([⟨rc_S256x64, p0⟩] : List (View.Piece (Elt F) S256x64 .f32)), y ∈ pc.1.set :=
  View.cover_of_tiled [⟨rc_S256x64, p0⟩] S256x64.size (by rfl) y

set_option maxHeartbeats 4000000 in
/-- The body on whole staging buffers — the inputs' at read contents, the output's at anything — runs to the
    continuation holding the inputs' as they were and the output's at `out1_3` of the inputs'. -/
theorem sound_kernel1 (c : Dev nD) (E : Set ℕ) (i : grid1.Coords) (arg1 : Memref sig .tc .vmem S256x64 .f32) (harg1 : arg1.IsWhole)
    (arg2 : Memref sig .tc .vmem S8192x64 .f32) (harg2 : arg2.IsWhole) (arg3 : Memref sig .tc .vmem S8192x64 .f32) (harg3 : arg3.IsWhole)
    (arg4 : Memref sig .tc .vmem S256x64 .f32) (harg4 : arg4.IsWhole)
    (x0 : Vec F S256x64 .f32) (x1 : Vec F S8192x64 .f32) (x2 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 i x0 x1 x2)) -∗ K ⟨⟩))
      ⊢ wp frame (wpE (defs₀ (F := F)) Variants.none c none) E (cc1__pairwise_kernel i arg1 harg1 arg2 harg2 arg3 harg3 arg4 harg4) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The pipeline's proof data -/

/-- The region's proof data on core `c`: the arrays as the region finds them; after the body at point `t` each input's
    buffer at its block and the output's at the body's function of the point and the input blocks; the invariant only
    the core's scoped rest and generator register; nothing owed. The two windows on the normalized rows hold the two
    halves of that array's share; the third input's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.KShare.lean ====
/- One array read through two windows of a region: the pairwise call takes the normalized rows both block by block
   (the queries) and whole (the keys). A window holds its array at a share; here the two windows hold the two halves of
   that array's full share, dealt when the region is entered out of the core's whole buffers and joined when it is left. -/
import proofs.«166473_j65481071400810_1_alg».proof.Proof.KRegion1
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The distinct arrays behind the pairwise call's four windows: the normalized rows (twice), the outputs, the result. -/
theorem img1 : Finset.univ.image (Pipeline.arrRef spec1) = ([main_v0_1, main_v0_0, main_v1] : List (Ref sig .tc)).toFinset := by decide

section
variable (c : Dev nD)
/-- Those three buffers, each whole at the full share. -/
def bufs3 (f : Buf (Elt F) ((c : Thread nD τ).loc main_v0_1)) (g : Buf (Elt F) ((c : Thread nD τ).loc main_v0_0))
    (h : Buf (Elt F) ((c : Thread nD τ).loc main_v1)) : sProp 𝕄 :=
  iprop((((c : Thread nD τ).loc main_v0_1) ↦{fullShare} f) ∗ (((c : Thread nD τ).loc main_v0_0) ↦{fullShare} g)
    ∗ (((c : Thread nD τ).loc main_v1) ↦{fullShare} h))
/-- The four windows' holdings: the normalized rows at the two halves of the share. -/
def wins4 (f f' : Buf (Elt F) ((c : Thread nD τ).loc main_v0_1)) (g : Buf (Elt F) ((c : Thread nD τ).loc main_v0_0))
    (h : Buf (Elt F) ((c : Thread nD τ).loc main_v1)) : sProp 𝕄 :=
  iprop((((c : Thread nD τ).loc main_v0_1) ↦{fullShare.left} f) ∗ (((c : Thread nD τ).loc main_v0_1) ↦{fullShare.right} f')
    ∗ (((c : Thread nD τ).loc main_v0_0) ↦{fullShare} g) ∗ (((c : Thread nD τ).loc main_v1) ↦{fullShare} h))

theorem bufs3_wins4 (f g h) : bufs3 (F := F) c f g h ⊣⊢ wins4 c f f g h := by
  unfold bufs3 wins4
  constructor
  · iintro ⟨Hn, Ho, Hr⟩
    ihave Hs := (pointsTo_share (PosShare.mem_left_op_right fullShare)).1 $$ Hn
    icases Hs with ⟨Hl, Hrr⟩
    isplitl [Hl]; · iexact Hl
    isplitl [Hrr]; · iexact Hrr
    isplitl [Ho]; · iexact Ho
    iexact Hr
  · iintro ⟨Hl, Hrr, Ho, Hr⟩
    isplitl [Hl Hrr]
    · iapply (pointsTo_share (PosShare.mem_left_op_right fullShare)).2
      isplitl [Hl]; · iexact Hl
      iexact Hrr
    isplitl [Ho]; · iexact Ho
    iexact Hr

theorem arrBufs1_eq (V : (b : Ref sig .tc) → Buf (Elt F) ((c : Thread nD τ).loc b)) :
    (Pipeline.arrBufs (Ix := Unit) (Name := ℕ) (U := UR sig nD τ) (Lvl := ℕ) (cfgs 1).spec c V : sProp 𝕄)
      = bufs3 c (V main_v0_1) (V main_v0_0) (V main_v1) := by
  unfold Pipeline.arrBufs bufs3
  exact bigSep_eq_bigSepL_of_eq _ img1 (by decide) _
end

section
variable (V : (c : Dev nD) → (b : Ref sig .tc) → Buf (Elt F) ((c : Thread nD τ).loc b)) (c : Dev nD)

theorem arrays1_eq (Fa : (w : Fin cfg1.W) → Buf (Elt F) ((cfg1.win w).arr.view.loc (c : Thread nD τ))) :
    ((dat1 V c).arrays Fa : sProp 𝕄) = wins4 c (Fa 0) (Fa 1) (Fa 2) (Fa 3) := by
  unfold Dat.arrays wins4
  rw [bigSep_W1, (arr_whole1 0).set_eq_univ, (arr_whole1 2).set_eq_univ, (arr_whole1 3).set_eq_univ,
    show (dat1 V c).share 0 = fullShare.left from rfl, show (dat1 V c).share 1 = fullShare.right from rfl,
    show (dat1 V c).share 2 = fullShare from rfl, show (dat1 V c).share 3 = fullShare from rfl]

/-- ENTRY: the core's unscoped buffers at `V` deal the region's arrays at their entry contents — the normalized rows'
    share halved between its two windows — beside the unscoped rest. -/
theorem arrays1_split :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [Pipeline.unscopedBufs_split₀ cfgs 1 winFacts₀1.arr_unscoped c (V c), arrBufs1_eq, arrays1_eq]
  refine sep_mono ?_ .rfl
  exact (bufs3_wins4 c _ _ _).1

/-- EXIT: the region's arrays at their final contents — the inputs' as entered, the result's at what the write-backs
    leave — and the unscoped rest are the core's unscoped buffers at any contents `V'` that has the result there and
    agrees with `V` elsewhere: the two halves of the normalized rows' share joined again. -/
theorem arrays1_join (V' : (b : Ref sig .tc) → Buf (Elt F) ((c : Thread nD τ).loc b))
    (h3 : V' main_v1 = (dat1 V c).arrAt 3 cfg1.N) (hrest : ∀ b, b ≠ main_v1 → V' b = V c b) :
    iprop((dat1 V c).arrays ((dat1 V c).arrAt · cfg1.N)
      ∗ Pipeline.unscopedRest (Ix := Unit) (Name := ℕ) (U := UR sig nD τ) (Lvl := ℕ) spec1 c (V c)) ⊢ (unscopedBufs c V' : sProp 𝕄) := by
  rw [Pipeline.unscopedBufs_split₀ cfgs 1 winFacts₀1.arr_unscoped c V', arrBufs1_eq, arrays1_eq]
  refine sep_mono ?_ (Entails.of_eq ?_)
  · rw [(dat1 V c).arrAt_in 0 rfl, (dat1 V c).arrAt_in 1 rfl, (dat1 V c).arrAt_in 2 rfl,
      hrest main_v0_1 (by decide), hrest main_v0_0 (by decide), h3]
    exact (bufs3_wins4 c _ _ _).2
  · unfold Pipeline.unscopedRest
    exact bigSep_congr fun b hb => by
      rw [hrest b (fun e => (Finset.mem_sdiff.mp hb).2 (Finset.mem_image.mpr ⟨3, Finset.mem_univ _, e.symm⟩))]
end
end Cert.Kernel.Fr
end
-- ==== Proof.KRun.lean ====
/- The whole program as two regions in a row: the buffer contents at the three boundaries (the launch memory; after the
   perceptron call, its two result arrays at what its write-backs leave; after the pairwise call, its result array
   likewise), each region as a segment between its two boundaries, and the run: every weakly fair execution terminates
   and the final memory holds every unscoped buffer at the last boundary's contents. The pairwise call's two windows on
   the normalized rows take that array's share in halves at the region's entry and give it back whole at its exit. -/
import proofs.«166473_j65481071400810_1_alg».proof.Proof.KRegion0
import proofs.«166473_j65481071400810_1_alg».proof.Proof.KRegion1
import proofs.«166473_j65481071400810_1_alg».proof.Proof.KShare
import Idealize.ShloMosaic.Adequacy
import Idealize.ShloMosaic.Init

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the perceptron call's entry). -/
abbrev W0 : Dev nD → Valuation τ sig (Elt F) := fun c b => m (c, b)
abbrev V1 : (c : Dev nD) → (b : Ref sig .tc) → Buf (Elt F) ((c : Thread nD τ).loc b) := fun c b => W0 m c b
/-- After the perceptron call: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the pairwise call: its result array at what the pipeline leaves, every other buffer as entered. -/
def W4 (c : Dev nD) : Valuation τ sig (Elt F) :=
  Function.update (W2 m c) (Proc.devRef .tc main_v1) ((dat1 (V2 m) c).arrAt 3 cfg1.N)
abbrev V4 : (c : Dev nD) → (b : Ref sig .tc) → Buf (Elt F) ((c : Thread nD τ).loc b) := fun c b => W4 m c b
theorem W4_res (c : Dev nD) : W4 m c (Proc.devRef .tc main_v1) = (dat1 (V2 m) c).arrAt 3 cfg1.N := by
  unfold W4; exact Function.update_self ..
theorem W4_of_ne (c : Dev nD) (b : Ref sig .tc) (hb : b ≠ main_v1) : W4 m c (Proc.devRef .tc b) = W2 m c (Proc.devRef .tc b) := by
  unfold W4; exact Function.update_of_ne (StableHlo.devRef_ne_of_ne hb) ..

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- The last thread state without the dues. -/
abbrev Tₙ (c : Dev nD) : sProp 𝕄 := iprop(StableHlo.held (c : Thread nD τ) (Pipeline.ucRefs τ sig) (W4 m c) ∗ ∃ r, prngReg c r)

theorem hF4 (c : Dev nD) : V4 m c main_v1 = (dat1 (V2 m) c).arrAt 3 cfg1.N := W4_res m c
theorem hrest4 (c : Dev nD) : ∀ b, b ≠ main_v1 → V4 m c b = V2 m c b := fun b hb => W4_of_ne m c b hb

/-! ## The regions as segments -/

set_option backward.isDefEq.respectTransparency.types false in
/-- The perceptron call over the thread state: entered from every unscoped buffer at the launch contents, left with its
    two result arrays at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise call over the thread state: entered from every unscoped buffer as the perceptron call left them, left
    with its result array at what its write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays ((pdats m 1 c).arrAt · 0)
        ∗ Pipeline.unscopedRest (Ix := Unit) (Name := ℕ) (U := UR sig nD τ) (Lvl := ℕ) spec1 c (V2 m c)) := arrays1_split (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (V2 m c)) ⊢ (unscopedBufs c (V4 m c) : sProp 𝕄) :=
      arrays1_join (V2 m) c (V4 m c) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

/-- An argument is an input array of the perceptron call and no array the pairwise call writes: it reaches the end as launched. -/
theorem W4_arg (c : Dev nD) (w : Fin cfg0.W) (hw : (cfg0.win w).isOut = false) (hne : Pipeline.arrRef spec0 w ≠ main_v1) :
    W4 m c (Proc.devRef .tc (Pipeline.arrRef spec0 w)) = V1 m c (Pipeline.arrRef spec0 w) :=
  (W4_of_ne m c _ hne).trans ((W2_arr m c w).trans (((dat0 (V1 m) c).arrAt_in w hw _).trans (A_eq0 (V1 m) c w)))

/-- THE FRAME: every weakly fair execution terminates, nothing faulting, with the seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_arg m c 0 rfl (by decide)),
     (h c _ (mem_uc main_arg1 (by decide))).trans (W4_arg m c 1 rfl (by decide)),
     (h c _ (mem_uc main_arg2 (by decide))).trans (W4_arg m c 2 rfl (by decide)),
     (h c _ (mem_uc main_arg3 (by decide))).trans (W4_arg m c 3 rfl (by decide)),
     (h c _ (mem_uc main_arg4 (by decide))).trans (W4_arg m c 4 rfl (by decide)),
     (h c _ (mem_uc main_arg5 (by decide))).trans (W4_arg m c 5 rfl (by decide)),
     (h c _ (mem_uc main_arg6 (by decide))).trans (W4_arg m c 6 rfl (by decide))⟩)
    (run_all m ρ)

end Cert.Kernel.Fr

end
-- ==== Proof.KIRegion0.lean ====
/- The perceptron call of the program, as one region entered with the core's buffers at contents `V`: what each
   window's staging buffer holds when the body is called at a grid point (the window's block of its array), what the
   body leaves in the two output buffers (its one whole-buffer store each, as a function of the seven input blocks),
   and that the body, run on those buffers, ends having done exactly that. -/
import proofs.«166473_j65481071400810_1_alg».proof.Proof.Gen.KernelIdeal.Launch
import proofs.«166473_j65481071400810_1_alg».proof.Proof.Gen.KernelIdeal.Skeleton
import proofs.«166473_j65481071400810_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: its index map either follows
    the grid or is constant, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: its index map either follows
    the grid or is constant, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: its index map either follows
    the grid or is constant, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: its index map either follows
    the grid or is constant, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: its index map either follows
    the grid or is constant, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not: its index map either follows
    the grid or is constant, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, fetched there or not: its index map either follows
    the grid or is constant, and the body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: every load and store takes its buffer whole. -/

abbrev rc_S1024x256 : Rect S1024x256 := Rect.unit (s := S1024x256) ![0, 0] S1024x256.size inb_S1024x256_S1024x256_0_0
abbrev rc_S512x256 : Rect S512x256 := Rect.unit (s := S512x256) ![0, 0] S512x256.size inb_S512x256_S512x256_0_0
abbrev rc_S512 : Rect S512 := Rect.unit (s := S512) ![0] S512.size inb_S512_S512_0
abbrev rc_S256x512 : Rect S256x512 := Rect.unit (s := S256x512) ![0, 0] S256x512.size inb_S256x512_S256x512_0_0
abbrev rc_S256 : Rect S256 := Rect.unit (s := S256) ![0] S256.size inb_S256_S256_0
abbrev rc_S64x256 : Rect S64x256 := Rect.unit (s := S64x256) ![0, 0] S64x256.size inb_S64x256_S64x256_0_0
abbrev rc_S64 : Rect S64 := Rect.unit (s := S64) ![0] S64.size inb_S64_S64_0
abbrev rc_S1024x64 : Rect S1024x64 := Rect.unit (s := S1024x64) ![0, 0] S1024x64.size inb_S1024x64_S1024x64_0_0

/-- What the body leaves in the first output buffer (the perceptron's output block): its one store's value. -/
def out0_7 (x0 : Vec F S1024x256 .f32) (x1 : Vec F S512x256 .f32) (x2 : Vec F S512 .f32) (x3 : Vec F S256x512 .f32) (x4 : Vec F S256 .f32) (x5 : Vec F S64x256 .f32) (x6 : Vec F S64 .f32) : Vec F S1024x64 .f32 :=
  View.canon [⟨rc_S1024x64, k0_pay1 (View.ld x0 rc_S1024x256) (View.ld x1 rc_S512x256) (View.ld x2 rc_S512) (View.ld x3 rc_S256x512) (View.ld x4 rc_S256) (View.ld x5 rc_S64x256) (View.ld x6 rc_S64)⟩]

/-- What it leaves in the second (the normalized block). -/
def out0_8 (x0 : Vec F S1024x256 .f32) (x1 : Vec F S512x256 .f32) (x2 : Vec F S512 .f32) (x3 : Vec F S256x512 .f32) (x4 : Vec F S256 .f32) (x5 : Vec F S64x256 .f32) (x6 : Vec F S64 .f32) : Vec F S1024x64 .f32 :=
  View.canon [⟨rc_S1024x64, k0_pay2 (View.ld x0 rc_S1024x256) (View.ld x1 rc_S512x256) (View.ld x2 rc_S512) (View.ld x3 rc_S256x512) (View.ld x4 rc_S256) (View.ld x5 rc_S64x256) (View.ld x6 rc_S64)⟩]

/-- A whole-buffer store covers the buffer. -/
theorem cover0 (p0 : Vec F S1024x64 .f32) (y : S1024x64.Idx) :
    ∃ pc ∈ ([⟨rc_S1024x64, p0⟩] : List (View.Piece (Elt F) S1024x64 .f32)), y ∈ pc.1.set :=
  View.cover_of_tiled [⟨rc_S1024x64, p0⟩] S1024x64.size (by rfl) y

set_option maxHeartbeats 4000000 in
/-- The body on whole staging buffers — the inputs' at read contents `xW`, the outputs' at anything — runs to the
    continuation holding the inputs' as they were and the outputs' at `out0_7`, `out0_8` of the inputs'. -/
theorem sound_kernel0 (c : Dev nD) (E : Set ℕ) (i : grid0.Coords) (arg1 : Memref sig .tc .vmem S1024x256 .f32) (harg1 : arg1.IsWhole) (arg2 : Memref sig .tc .vmem S512x256 .f32) (harg2 : arg2.IsWhole) (arg3 : Memref sig .tc .vmem S512 .f32) (harg3 : arg3.IsWhole) (arg4 : Memref sig .tc .vmem S256x512 .f32) (harg4 : arg4.IsWhole) (arg5 : Memref sig .tc .vmem S256 .f32) (harg5 : arg5.IsWhole) (arg6 : Memref sig .tc .vmem S64x256 .f32) (harg6 : arg6.IsWhole) (arg7 : Memref sig .tc .vmem S64 .f32) (harg7 : arg7.IsWhole) (arg8 : Memref sig .tc .vmem S1024x64 .f32) (harg8 : arg8.IsWhole) (arg9 : Memref sig .tc .vmem S1024x64 .f32) (harg9 : arg9.IsWhole)
    (x0 : Vec F S1024x256 .f32) (x1 : Vec F S512x256 .f32) (x2 : Vec F S512 .f32) (x3 : Vec F S256x512 .f32) (x4 : Vec F S256 .f32) (x5 : Vec F S64x256 .f32) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

/-! ## The pipeline's proof data -/

/-- The region's proof data on core `c`: the arrays as the region finds them; after the body at point `t` each input's
    buffer at its block and each output's at the body's function of the input blocks; the invariant only the core's
    scoped rest and generator register, untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KIRegion1.lean ====
/- The pairwise call of the program, as one region entered with the core's buffers at contents `V`: the windows'
   blocks, what the body leaves in the output buffer (one whole-buffer store, a function of the grid point and the
   three input blocks), the body's run, and the proof data. Two of its input windows read ONE array (the normalized
   rows: a 256-row block of them as queries, and all of them as keys): each window holds half of that array's share,
   and the halves are dealt out of the whole array at the region's entry and joined again at its exit. -/
import proofs.«166473_j65481071400810_1_alg».proof.Proof.Gen.KernelIdeal.Launch
import proofs.«166473_j65481071400810_1_alg».proof.Proof.Gen.KernelIdeal.Skeleton
import proofs.«166473_j65481071400810_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: every load and store takes its buffer whole. -/

abbrev rc_S256x64 : Rect S256x64 := Rect.unit (s := S256x64) ![0, 0] S256x64.size inb_S256x64_S256x64_0_0
abbrev rc_S8192x64 : Rect S8192x64 := Rect.unit (s := S8192x64) ![0, 0] S8192x64.size inb_S8192x64_S8192x64_0_0

/-- What the body leaves in the output buffer at grid coordinates `i`: its one store's value. -/
def out1_3 (i : grid1.Coords) (x0 : Vec F S256x64 .f32) (x1 : Vec F S8192x64 .f32) (x2 : Vec F S8192x64 .f32) : Vec F S256x64 .f32 :=
  View.canon [⟨rc_S256x64, k1_pay1 i (View.ld x0 rc_S256x64) (View.ld x1 rc_S8192x64) (View.ld x2 rc_S8192x64)⟩]

/-- A whole-buffer store covers the buffer. -/
theorem cover1 (p0 : Vec F S256x64 .f32) (y : S256x64.Idx) :
    ∃ pc ∈ ([⟨rc_S256x64, p0⟩] : List (View.Piece (Elt F) S256x64 .f32)), y ∈ pc.1.set :=
  View.cover_of_tiled [⟨rc_S256x64, p0⟩] S256x64.size (by rfl) y

set_option maxHeartbeats 4000000 in
/-- The body on whole staging buffers — the inputs' at read contents, the output's at anything — runs to the
    continuation holding the inputs' as they were and the output's at `out1_3` of the inputs'. -/
theorem sound_kernel1 (c : Dev nD) (E : Set ℕ) (i : grid1.Coords) (arg1 : Memref sig .tc .vmem S256x64 .f32) (harg1 : arg1.IsWhole)
    (arg2 : Memref sig .tc .vmem S8192x64 .f32) (harg2 : arg2.IsWhole) (arg3 : Memref sig .tc .vmem S8192x64 .f32) (harg3 : arg3.IsWhole)
    (arg4 : Memref sig .tc .vmem S256x64 .f32) (harg4 : arg4.IsWhole)
    (x0 : Vec F S256x64 .f32) (x1 : Vec F S8192x64 .f32) (x2 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 i x0 x1 x2)) -∗ K ⟨⟩))
      ⊢ wp frame (wpE (defs₀ (F := F)) Variants.none c none) E (cc1__pairwise_kernel i arg1 harg1 arg2 harg2 arg3 harg3 arg4 harg4) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The pipeline's proof data -/

/-- The region's proof data on core `c`: the arrays as the region finds them; after the body at point `t` each input's
    buffer at its block and the output's at the body's function of the point and the input blocks; the invariant only
    the core's scoped rest and generator register; nothing owed. The two windows on the normalized rows hold the two
    halves of that array's share; the third input's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KIShare.lean ====
/- One array read through two windows of a region: the pairwise call takes the normalized rows both block by block
   (the queries) and whole (the keys). A window holds its array at a share; here the two windows hold the two halves of
   that array's full share, dealt when the region is entered out of the core's whole buffers and joined when it is left. -/
import proofs.«166473_j65481071400810_1_alg».proof.Proof.KIRegion1
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The distinct arrays behind the pairwise call's four windows: the normalized rows (twice), the outputs, the result. -/
theorem img1 : Finset.univ.image (Pipeline.arrRef spec1) = ([main_v0_1, main_v0_0, main_v1] : List (Ref sig .tc)).toFinset := by decide

section
variable (c : Dev nD)
/-- Those three buffers, each whole at the full share. -/
def bufs3 (f : Buf (Elt F) ((c : Thread nD τ).loc main_v0_1)) (g : Buf (Elt F) ((c : Thread nD τ).loc main_v0_0))
    (h : Buf (Elt F) ((c : Thread nD τ).loc main_v1)) : sProp 𝕄 :=
  iprop((((c : Thread nD τ).loc main_v0_1) ↦{fullShare} f) ∗ (((c : Thread nD τ).loc main_v0_0) ↦{fullShare} g)
    ∗ (((c : Thread nD τ).loc main_v1) ↦{fullShare} h))
/-- The four windows' holdings: the normalized rows at the two halves of the share. -/
def wins4 (f f' : Buf (Elt F) ((c : Thread nD τ).loc main_v0_1)) (g : Buf (Elt F) ((c : Thread nD τ).loc main_v0_0))
    (h : Buf (Elt F) ((c : Thread nD τ).loc main_v1)) : sProp 𝕄 :=
  iprop((((c : Thread nD τ).loc main_v0_1) ↦{fullShare.left} f) ∗ (((c : Thread nD τ).loc main_v0_1) ↦{fullShare.right} f')
    ∗ (((c : Thread nD τ).loc main_v0_0) ↦{fullShare} g) ∗ (((c : Thread nD τ).loc main_v1) ↦{fullShare} h))

theorem bufs3_wins4 (f g h) : bufs3 (F := F) c f g h ⊣⊢ wins4 c f f g h := by
  unfold bufs3 wins4
  constructor
  · iintro ⟨Hn, Ho, Hr⟩
    ihave Hs := (pointsTo_share (PosShare.mem_left_op_right fullShare)).1 $$ Hn
    icases Hs with ⟨Hl, Hrr⟩
    isplitl [Hl]; · iexact Hl
    isplitl [Hrr]; · iexact Hrr
    isplitl [Ho]; · iexact Ho
    iexact Hr
  · iintro ⟨Hl, Hrr, Ho, Hr⟩
    isplitl [Hl Hrr]
    · iapply (pointsTo_share (PosShare.mem_left_op_right fullShare)).2
      isplitl [Hl]; · iexact Hl
      iexact Hrr
    isplitl [Ho]; · iexact Ho
    iexact Hr

theorem arrBufs1_eq (V : (b : Ref sig .tc) → Buf (Elt F) ((c : Thread nD τ).loc b)) :
    (Pipeline.arrBufs (Ix := Unit) (Name := ℕ) (U := UR sig nD τ) (Lvl := ℕ) (cfgs 1).spec c V : sProp 𝕄)
      = bufs3 c (V main_v0_1) (V main_v0_0) (V main_v1) := by
  unfold Pipeline.arrBufs bufs3
  exact bigSep_eq_bigSepL_of_eq _ img1 (by decide) _
end

section
variable (V : (c : Dev nD) → (b : Ref sig .tc) → Buf (Elt F) ((c : Thread nD τ).loc b)) (c : Dev nD)

theorem arrays1_eq (Fa : (w : Fin cfg1.W) → Buf (Elt F) ((cfg1.win w).arr.view.loc (c : Thread nD τ))) :
    ((dat1 V c).arrays Fa : sProp 𝕄) = wins4 c (Fa 0) (Fa 1) (Fa 2) (Fa 3) := by
  unfold Dat.arrays wins4
  rw [bigSep_W1, (arr_whole1 0).set_eq_univ, (arr_whole1 2).set_eq_univ, (arr_whole1 3).set_eq_univ,
    show (dat1 V c).share 0 = fullShare.left from rfl, show (dat1 V c).share 1 = fullShare.right from rfl,
    show (dat1 V c).share 2 = fullShare from rfl, show (dat1 V c).share 3 = fullShare from rfl]

/-- ENTRY: the core's unscoped buffers at `V` deal the region's arrays at their entry contents — the normalized rows'
    share halved between its two windows — beside the unscoped rest. -/
theorem arrays1_split :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [Pipeline.unscopedBufs_split₀ cfgs 1 winFacts₀1.arr_unscoped c (V c), arrBufs1_eq, arrays1_eq]
  refine sep_mono ?_ .rfl
  exact (bufs3_wins4 c _ _ _).1

/-- EXIT: the region's arrays at their final contents — the inputs' as entered, the result's at what the write-backs
    leave — and the unscoped rest are the core's unscoped buffers at any contents `V'` that has the result there and
    agrees with `V` elsewhere: the two halves of the normalized rows' share joined again. -/
theorem arrays1_join (V' : (b : Ref sig .tc) → Buf (Elt F) ((c : Thread nD τ).loc b))
    (h3 : V' main_v1 = (dat1 V c).arrAt 3 cfg1.N) (hrest : ∀ b, b ≠ main_v1 → V' b = V c b) :
    iprop((dat1 V c).arrays ((dat1 V c).arrAt · cfg1.N)
      ∗ Pipeline.unscopedRest (Ix := Unit) (Name := ℕ) (U := UR sig nD τ) (Lvl := ℕ) spec1 c (V c)) ⊢ (unscopedBufs c V' : sProp 𝕄) := by
  rw [Pipeline.unscopedBufs_split₀ cfgs 1 winFacts₀1.arr_unscoped c V', arrBufs1_eq, arrays1_eq]
  refine sep_mono ?_ (Entails.of_eq ?_)
  · rw [(dat1 V c).arrAt_in 0 rfl, (dat1 V c).arrAt_in 1 rfl, (dat1 V c).arrAt_in 2 rfl,
      hrest main_v0_1 (by decide), hrest main_v0_0 (by decide), h3]
    exact (bufs3_wins4 c _ _ _).2
  · unfold Pipeline.unscopedRest
    exact bigSep_congr fun b hb => by
      rw [hrest b (fun e => (Finset.mem_sdiff.mp hb).2 (Finset.mem_image.mpr ⟨3, Finset.mem_univ _, e.symm⟩))]
end
end Cert.KernelIdeal.Fr
end
-- ==== Proof.KIRun.lean ====
/- The whole program as two regions in a row: the buffer contents at the three boundaries (the launch memory; after the
   perceptron call, its two result arrays at what its write-backs leave; after the pairwise call, its result array
   likewise), each region as a segment between its two boundaries, and the run: every weakly fair execution terminates
   and the final memory holds every unscoped buffer at the last boundary's contents. The pairwise call's two windows on
   the normalized rows take that array's share in halves at the region's entry and give it back whole at its exit. -/
import proofs.«166473_j65481071400810_1_alg».proof.Proof.KIRegion0
import proofs.«166473_j65481071400810_1_alg».proof.Proof.KIRegion1
import proofs.«166473_j65481071400810_1_alg».proof.Proof.KIShare
import Idealize.ShloMosaic.Adequacy
import Idealize.ShloMosaic.Init

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the perceptron call's entry). -/
abbrev W0 : Dev nD → Valuation τ sig (Elt F) := fun c b => m (c, b)
abbrev V1 : (c : Dev nD) → (b : Ref sig .tc) → Buf (Elt F) ((c : Thread nD τ).loc b) := fun c b => W0 m c b
/-- After the perceptron call: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the pairwise call: its result array at what the pipeline leaves, every other buffer as entered. -/
def W4 (c : Dev nD) : Valuation τ sig (Elt F) :=
  Function.update (W2 m c) (Proc.devRef .tc main_v1) ((dat1 (V2 m) c).arrAt 3 cfg1.N)
abbrev V4 : (c : Dev nD) → (b : Ref sig .tc) → Buf (Elt F) ((c : Thread nD τ).loc b) := fun c b => W4 m c b
theorem W4_res (c : Dev nD) : W4 m c (Proc.devRef .tc main_v1) = (dat1 (V2 m) c).arrAt 3 cfg1.N := by
  unfold W4; exact Function.update_self ..
theorem W4_of_ne (c : Dev nD) (b : Ref sig .tc) (hb : b ≠ main_v1) : W4 m c (Proc.devRef .tc b) = W2 m c (Proc.devRef .tc b) := by
  unfold W4; exact Function.update_of_ne (StableHlo.devRef_ne_of_ne hb) ..

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- The last thread state without the dues. -/
abbrev Tₙ (c : Dev nD) : sProp 𝕄 := iprop(StableHlo.held (c : Thread nD τ) (Pipeline.ucRefs τ sig) (W4 m c) ∗ ∃ r, prngReg c r)

theorem hF4 (c : Dev nD) : V4 m c main_v1 = (dat1 (V2 m) c).arrAt 3 cfg1.N := W4_res m c
theorem hrest4 (c : Dev nD) : ∀ b, b ≠ main_v1 → V4 m c b = V2 m c b := fun b hb => W4_of_ne m c b hb

/-! ## The regions as segments -/

set_option backward.isDefEq.respectTransparency.types false in
/-- The perceptron call over the thread state: entered from every unscoped buffer at the launch contents, left with its
    two result arrays at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise call over the thread state: entered from every unscoped buffer as the perceptron call left them, left
    with its result array at what its write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays ((pdats m 1 c).arrAt · 0)
        ∗ Pipeline.unscopedRest (Ix := Unit) (Name := ℕ) (U := UR sig nD τ) (Lvl := ℕ) spec1 c (V2 m c)) := arrays1_split (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (V2 m c)) ⊢ (unscopedBufs c (V4 m c) : sProp 𝕄) :=
      arrays1_join (V2 m) c (V4 m c) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing
    faulting, and the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

/-- An argument is an input array of the perceptron call and no array the pairwise call writes: it reaches the end as launched. -/
theorem W4_arg (c : Dev nD) (w : Fin cfg0.W) (hw : (cfg0.win w).isOut = false) (hne : Pipeline.arrRef spec0 w ≠ main_v1) :
    W4 m c (Proc.devRef .tc (Pipeline.arrRef spec0 w)) = V1 m c (Pipeline.arrRef spec0 w) :=
  (W4_of_ne m c _ hne).trans ((W2_arr m c w).trans (((dat0 (V1 m) c).arrAt_in w hw _).trans (A_eq0 (V1 m) c w)))

/-- THE FRAME: every weakly fair execution terminates, nothing faulting, with the seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_arg m c 0 rfl (by decide)),
     (h c _ (mem_uc main_arg1 (by decide))).trans (W4_arg m c 1 rfl (by decide)),
     (h c _ (mem_uc main_arg2 (by decide))).trans (W4_arg m c 2 rfl (by decide)),
     (h c _ (mem_uc main_arg3 (by decide))).trans (W4_arg m c 3 rfl (by decide)),
     (h c _ (mem_uc main_arg4 (by decide))).trans (W4_arg m c 4 rfl (by decide)),
     (h c _ (mem_uc main_arg5 (by decide))).trans (W4_arg m c 5 rfl (by decide)),
     (h c _ (mem_uc main_arg6 (by decide))).trans (W4_arg m c 6 rfl (by decide))⟩)
    (run_all m ρ)

end Cert.KernelIdeal.Fr

end
-- ==== Proof.Spec.lean ====
/-
  What both programs compute, as plain functions over finite index types on the extended reals.

  A three-layer perceptron sends each row `x` of the batch to
  `out = W3 · tanh (W2 · tanh (W1 · x + b1) + b2) + b3`; the row is then scaled to
  `n = out / (‖out‖ + ε)`, with `‖out‖ = √(∑ out²)`. For two rows `r`, `j` the fidelity is `(n r · n j)²`;
  row `r` is adjacent to row `j ≠ r` when the fidelity reaches the threshold, never to itself, and the
  result's row `r` is the sum of the `out` rows adjacent to it.
-/
import Idealize.ShloMosaic.PureOps.Ideal
import Idealize.ShloMosaic.Lib.ValueIdx

noncomputable section

namespace Cert.Spec

open Idealize.ShloMosaic Idealize.ShloMosaic.ValueIdx

/-- The stabilizer added to a row's norm, and the fidelity threshold: the two float words both programs share. -/
abbrev eps : EReal := Ideal.ofBits .f32 0x2B8CBCCC#32
abbrev thr : EReal := Ideal.ofBits .f32 0x3F666666#32

/-- One affine layer at output unit `j`: `∑ₖ a k · w j k + b j` (the weights stored unit-major). -/
def lin {K N : Nat} (a : Fin K → EReal) (w : Fin N → Fin K → EReal) (b : Fin N → EReal) (j : Fin N) : EReal :=
  (∑ k : Fin K, a k * w j k) + b j

/-- The perceptron on one row. -/
def outRow (x : Fin 256 → EReal) (W1 : Fin 512 → Fin 256 → EReal) (b1 : Fin 512 → EReal)
    (W2 : Fin 256 → Fin 512 → EReal) (b2 : Fin 256 → EReal) (W3 : Fin 64 → Fin 256 → EReal) (b3 : Fin 64 → EReal) :
    Fin 64 → EReal :=
  lin (fun j => Ideal.tanh (lin (fun i => Ideal.tanh (lin x W1 b1 i)) W2 b2 j)) W3 b3

/-- A row divided by its Euclidean norm plus `ε`. -/
def normRow (o : Fin 64 → EReal) (k : Fin 64) : EReal :=
  Ideal.div (o k) (Ideal.sqrt (∑ j : Fin 64, o j * o j) + eps)

/-- The inner product of two rows. -/
def dot64 (a b : Fin 64 → EReal) : EReal := ∑ k : Fin 64, a k * b k

/-- Whether the squared inner product reaches the threshold, as `0` or `1`. -/
def hit (s : EReal) : EReal := (((Ideal.cmp .oge (s * s) thr).toNat : ℝ) : EReal)

/-- The adjacency weight of row `j` for the query row `q` standing at position `r`: no self-edge. -/
def adjRow (q : Fin 64 → EReal) (n : Fin 8192 → Fin 64 → EReal) (r j : Fin 8192) : EReal :=
  if r = j then 0 else hit (dot64 q (n j))

/-- The aggregate for the query row `q` at position `r`: the adjacent `o` rows summed. -/
def aggRow (q : Fin 64 → EReal) (n o : Fin 8192 → Fin 64 → EReal) (r : Fin 8192) (k : Fin 64) : EReal :=
  ∑ j : Fin 8192, adjRow q n r j * o j k

abbrev A2 (a b : Nat) : Type := (⟨2, ![a, b]⟩ : Shape).Idx → EReal
abbrev A1 (a : Nat) : Type := (⟨1, ![a]⟩ : Shape).Idx → EReal

/-- A matrix as a function of its two coordinates, a vector of its one. -/
abbrev mat {a b : Nat} (x : A2 a b) : Fin a → Fin b → EReal := fun r k => x (ix2 r k)
abbrev vec {a : Nat} (x : A1 a) : Fin a → EReal := fun r => x (ix1 r)

/-- The perceptron's output on the whole batch. -/
def outArr (x : A2 8192 256) (W1 : A2 512 256) (b1 : A1 512) (W2 : A2 256 512) (b2 : A1 256) (W3 : A2 64 256) (b3 : A1 64) :
    A2 8192 64 :=
  fun i => outRow (mat x ⟨(i 0).val, idx2_lt0 i⟩) (mat W1) (vec b1) (mat W2) (vec b2) (mat W3) (vec b3) ⟨(i 1).val, idx2_lt1 i⟩

/-- Every row normalized. -/
def normArr (o : A2 8192 64) : A2 8192 64 :=
  fun i => normRow (mat o ⟨(i 0).val, idx2_lt0 i⟩) ⟨(i 1).val, idx2_lt1 i⟩

/-- The thresholded-fidelity aggregation of `o` by the normalized rows `n`. -/
def aggArr (n o : A2 8192 64) : A2 8192 64 :=
  fun i => aggRow (mat n ⟨(i 0).val, idx2_lt0 i⟩) (mat n) (mat o) ⟨(i 0).val, idx2_lt0 i⟩ ⟨(i 1).val, idx2_lt1 i⟩

/-- The whole computation. -/
def result (x : A2 8192 256) (W1 : A2 512 256) (b1 : A1 512) (W2 : A2 256 512) (b2 : A1 256) (W3 : A2 64 256) (b3 : A1 64) :
    A2 8192 64 :=
  aggArr (normArr (outArr x W1 b1 W2 b2 W3 b3)) (outArr x W1 b1 W2 b2 W3 b3)

theorem outArr_apply (x : A2 8192 256) (W1 : A2 512 256) (b1 : A1 512) (W2 : A2 256 512) (b2 : A1 256) (W3 : A2 64 256) (b3 : A1 64)
    (r : Fin 8192) (k : Fin 64) :
    outArr x W1 b1 W2 b2 W3 b3 (ix2 r k) = outRow (mat x r) (mat W1) (vec b1) (mat W2) (vec b2) (mat W3) (vec b3) k := rfl

theorem normArr_apply (o : A2 8192 64) (r : Fin 8192) (k : Fin 64) : normArr o (ix2 r k) = normRow (mat o r) k := rfl

theorem aggArr_apply (n o : A2 8192 64) (r : Fin 8192) (k : Fin 64) :
    aggArr n o (ix2 r k) = aggRow (mat n r) (mat n) (mat o) r k := rfl

end Cert.Spec

end
-- ==== Proof.KIVal0.lean ====
/- The perceptron kernel's two stored values read at an index of the block, at the extended reals: row `p` of the
   block depends on row `p` of the input block only, and is the specification's row function of it. -/
import proofs.«166473_j65481071400810_1_alg».proof.Proof.Gen.KernelIdeal.Skeleton
import proofs.«166473_j65481071400810_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx Cert.Spec

/-! ## The three contractions read at an index -/

/-! ### The contraction of a `[1024, 256]` block with the transpose of a `[512, 256]` block -/

theorem lhsA_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhsA_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhsA_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhsA_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product into the zero accumulator at `(p, j)`: row `p` of the left block against row `j` of the weights. -/
theorem mmA_apply (a : FVec Ideal S1024x256 .bf16) (w : FVec Ideal S512x256 .bf16) (ht : S512x256.Transposes [1, 0] S256x512)
    (p : Fin 1024) (j : Fin 512) :
    matmul dot_S1024x256_S256x512_S1024x512_1_0_0_1_n_n none a (transpose S256x512 [1, 0] w ht) (constant (F := Ideal) S1024x512 .f32 0x00000000#32) (ix2 p j)
      = ∑ l : Fin 256, a (ix2 p l) * w (ix2 j l) := by
  simp only [matmul]
  rw [Ideal.matmul_constant_zero_apply, ← Equiv.sum_comp (contrEquiv1 dot_S1024x256_S256x512_S1024x512_1_0_0_1_n_n 256 rfl rfl).symm]
  refine Finset.sum_congr rfl fun l _ => ?_
  have hl := contrEquiv1_symm_val dot_S1024x256_S256x512_S1024x512_1_0_0_1_n_n 256 rfl rfl l
  have el : dot_S1024x256_S256x512_S1024x512_1_0_0_1_n_n.lhsIdx (ix2 p j) ((contrEquiv1 dot_S1024x256_S256x512_S1024x512_1_0_0_1_n_n 256 rfl rfl).symm l) = ix2 p l := funext fun c => Fin.ext (by
    match c with
    | ⟨0, _⟩ => exact lhsA_0 _ _
    | ⟨1, _⟩ => exact (lhsA_1 _ _).trans hl)
  have er : dot_S1024x256_S256x512_S1024x512_1_0_0_1_n_n.rhsIdx (ix2 p j) ((contrEquiv1 dot_S1024x256_S256x512_S1024x512_1_0_0_1_n_n 256 rfl rfl).symm l) = ix2 l j := funext fun c => Fin.ext (by
    match c with
    | ⟨0, _⟩ => exact (rhsA_0 _ _).trans hl
    | ⟨1, _⟩ => exact rhsA_1 _ _)
  rw [el, er, transpose_ix2_apply]

/-! ### The contraction of a `[1024, 512]` block with the transpose of a `[256, 512]` block -/

theorem lhsB_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhsB_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhsB_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhsB_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The product into the zero accumulator at `(p, j)`: row `p` of the left block against row `j` of the weights. -/
theorem mmB_apply (a : FVec Ideal S1024x512 .bf16) (w : FVec Ideal S256x512 .bf16) (ht : S256x512.Transposes [1, 0] S512x256)
    (p : Fin 1024) (j : Fin 256) :
    matmul dot_S1024x512_S512x256_S1024x256_1_0_0_1_n_n none a (transpose S512x256 [1, 0] w ht) (constant (F := Ideal) S1024x256 .f32 0x00000000#32) (ix2 p j)
      = ∑ l : Fin 512, a (ix2 p l) * w (ix2 j l) := by
  simp only [matmul]
  rw [Ideal.matmul_constant_zero_apply, ← Equiv.sum_comp (contrEquiv1 dot_S1024x512_S512x256_S1024x256_1_0_0_1_n_n 512 rfl rfl).symm]
  refine Finset.sum_congr rfl fun l _ => ?_
  have hl := contrEquiv1_symm_val dot_S1024x512_S512x256_S1024x256_1_0_0_1_n_n 512 rfl rfl l
  have el : dot_S1024x512_S512x256_S1024x256_1_0_0_1_n_n.lhsIdx (ix2 p j) ((contrEquiv1 dot_S1024x512_S512x256_S1024x256_1_0_0_1_n_n 512 rfl rfl).symm l) = ix2 p l := funext fun c => Fin.ext (by
    match c with
    | ⟨0, _⟩ => exact lhsB_0 _ _
    | ⟨1, _⟩ => exact (lhsB_1 _ _).trans hl)
  have er : dot_S1024x512_S512x256_S1024x256_1_0_0_1_n_n.rhsIdx (ix2 p j) ((contrEquiv1 dot_S1024x512_S512x256_S1024x256_1_0_0_1_n_n 512 rfl rfl).symm l) = ix2 l j := funext fun c => Fin.ext (by
    match c with
    | ⟨0, _⟩ => exact (rhsB_0 _ _).trans hl
    | ⟨1, _⟩ => exact rhsB_1 _ _)
  rw [el, er, transpose_ix2_apply]

/-! ### The contraction of a `[1024, 256]` block with the transpose of a `[64, 256]` block -/

theorem lhsC_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhsC_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhsC_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhsC_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- The product into the zero accumulator at `(p, j)`: row `p` of the left block against row `j` of the weights. -/
theorem mmC_apply (a : FVec Ideal S1024x256 .bf16) (w : FVec Ideal S64x256 .bf16) (ht : S64x256.Transposes [1, 0] S256x64)
    (p : Fin 1024) (j : Fin 64) :
    matmul dot_S1024x256_S256x64_S1024x64_1_0_0_1_n_n none a (transpose S256x64 [1, 0] w ht) (constant (F := Ideal) S1024x64 .f32 0x00000000#32) (ix2 p j)
      = ∑ l : Fin 256, a (ix2 p l) * w (ix2 j l) := by
  simp only [matmul]
  rw [Ideal.matmul_constant_zero_apply, ← Equiv.sum_comp (contrEquiv1 dot_S1024x256_S256x64_S1024x64_1_0_0_1_n_n 256 rfl rfl).symm]
  refine Finset.sum_congr rfl fun l _ => ?_
  have hl := contrEquiv1_symm_val dot_S1024x256_S256x64_S1024x64_1_0_0_1_n_n 256 rfl rfl l
  have el : dot_S1024x256_S256x64_S1024x64_1_0_0_1_n_n.lhsIdx (ix2 p j) ((contrEquiv1 dot_S1024x256_S256x64_S1024x64_1_0_0_1_n_n 256 rfl rfl).symm l) = ix2 p l := funext fun c => Fin.ext (by
    match c with
    | ⟨0, _⟩ => exact lhsC_0 _ _
    | ⟨1, _⟩ => exact (lhsC_1 _ _).trans hl)
  have er : dot_S1024x256_S256x64_S1024x64_1_0_0_1_n_n.rhsIdx (ix2 p j) ((contrEquiv1 dot_S1024x256_S256x64_S1024x64_1_0_0_1_n_n 256 rfl rfl).symm l) = ix2 l j := funext fun c => Fin.ext (by
    match c with
    | ⟨0, _⟩ => exact (rhsC_0 _ _).trans hl
    | ⟨1, _⟩ => exact rhsC_1 _ _)
  rw [el, er, transpose_ix2_apply]

/-! ## The keepdims layouts, and the unary operations, read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias `[n]` laid as one row and repeated over `a` rows reads, at `(p, c)`, the bias at `c`. -/
theorem bias_apply {α : Type} {a n : ℕ} (b : (⟨1, ![n]⟩ : Shape).Idx → α) (hs : (⟨1, ![n]⟩ : Shape).ShapeCasts ⟨2, ![1, n]⟩)
    (hb : (⟨2, ![1, n]⟩ : Shape).Broadcasts ⟨2, ![a, n]⟩) (p : Fin a) (c : Fin n) :
    broadcastTo ⟨2, ![a, n]⟩ (shapeCast ⟨2, ![1, n]⟩ b hs) hb (ix2 p c) = b (ix1 c) := by
  rw [broadcastTo_1b_ab_apply, shapeCast_a_1a_apply]

/-- The hyperbolic tangent of a block at an index is that of the element. -/
theorem tanh_apply {s : Shape} {φ : FTy} (a : FVec Ideal s φ) (i : s.Idx) : tanh a i = Ideal.tanh (a i) := rfl
/-- The square root of a block at an index is that of the element. -/
theorem sqrt_apply {s : Shape} {φ : FTy} (a : FVec Ideal s φ) (i : s.Idx) : sqrt a i = Ideal.sqrt (a i) := rfl

/-- The sum along the rows of a `[1024, 64]` block at `p`. -/
theorem rowSum_apply (src : FVec Ideal S1024x64 .f32) (h : S1024x64.Reduces [1] S1024) (hφ : FKind.Formats .f32)
    (hacc : (0x00000000#32 : BitVec 32) = 0x00000000#32) (p : Fin 1024) :
    multiReduction (F := Ideal) .add [1] S1024 src 0x00000000#32 h hφ hacc (ix1 p) = ∑ k : Fin 64, src (ix2 p k) := by
  refine (Ideal.multiReduction_add_single src 0x00000000#32 h hφ hacc (ix1 p)).trans ?_
  refine Finset.sum_congr rfl fun k _ => ?_
  exact congrArg src (funext fun c => Fin.ext (by match c with | ⟨0, _⟩ => rfl | ⟨1, _⟩ => rfl))

/-! ## The three affine layers -/

/-- One affine layer at `(p, j)`: the products of row `p` with row `j` of the weights summed, plus the bias at `j`. -/
theorem layerA_apply (a : FVec Ideal S1024x256 .f32) (w : FVec Ideal S512x256 .f32) (b : FVec Ideal S512 .f32)
    (hbf : FTy.bits .bf16 < FTy.bits .f32) (ht : S512x256.Transposes [1, 0] S256x512) (hs : S512.ShapeCasts S1x512)
    (hb : S1x512.Broadcasts S1024x512) (p : Fin 1024) (j : Fin 512) :
    addf (matmul dot_S1024x256_S256x512_S1024x512_1_0_0_1_n_n none (truncf .bf16 a hbf) (transpose S256x512 [1, 0] (truncf .bf16 w hbf) ht)
        (constant (F := Ideal) S1024x512 .f32 0x00000000#32)) (broadcastTo S1024x512 (shapeCast S1x512 b hs) hb) (ix2 p j)
      = lin (fun l => a (ix2 p l)) (fun c l => w (ix2 c l)) (fun c => b (ix1 c)) j := by
  rw [addf_apply, mmA_apply, bias_apply]
  rfl

/-- One affine layer at `(p, j)`: the products of row `p` with row `j` of the weights summed, plus the bias at `j`. -/
theorem layerB_apply (a : FVec Ideal S1024x512 .f32) (w : FVec Ideal S256x512 .f32) (b : FVec Ideal S256 .f32)
    (hbf : FTy.bits .bf16 < FTy.bits .f32) (ht : S256x512.Transposes [1, 0] S512x256) (hs : S256.ShapeCasts S1x256)
    (hb : S1x256.Broadcasts S1024x256) (p : Fin 1024) (j : Fin 256) :
    addf (matmul dot_S1024x512_S512x256_S1024x256_1_0_0_1_n_n none (truncf .bf16 a hbf) (transpose S512x256 [1, 0] (truncf .bf16 w hbf) ht)
        (constant (F := Ideal) S1024x256 .f32 0x00000000#32)) (broadcastTo S1024x256 (shapeCast S1x256 b hs) hb) (ix2 p j)
      = lin (fun l => a (ix2 p l)) (fun c l => w (ix2 c l)) (fun c => b (ix1 c)) j := by
  rw [addf_apply, mmB_apply, bias_apply]
  rfl

/-- One affine layer at `(p, j)`: the products of row `p` with row `j` of the weights summed, plus the bias at `j`. -/
theorem layerC_apply (a : FVec Ideal S1024x256 .f32) (w : FVec Ideal S64x256 .f32) (b : FVec Ideal S64 .f32)
    (hbf : FTy.bits .bf16 < FTy.bits .f32) (ht : S64x256.Transposes [1, 0] S256x64) (hs : S64.ShapeCasts S1x64)
    (hb : S1x64.Broadcasts S1024x64) (p : Fin 1024) (j : Fin 64) :
    addf (matmul dot_S1024x256_S256x64_S1024x64_1_0_0_1_n_n none (truncf .bf16 a hbf) (transpose S256x64 [1, 0] (truncf .bf16 w hbf) ht)
        (constant (F := Ideal) S1024x64 .f32 0x00000000#32)) (broadcastTo S1024x64 (shapeCast S1x64 b hs) hb) (ix2 p j)
      = lin (fun l => a (ix2 p l)) (fun c l => w (ix2 c l)) (fun c => b (ix1 c)) j := by
  rw [addf_apply, mmC_apply, bias_apply]
  rfl

/-! ## The two stored values -/

/-- A layer's value depends on its input row only through the row's elements. -/
theorem lin_congr {K N : Nat} (a a' : Fin K → EReal) (w : Fin N → Fin K → EReal) (b : Fin N → EReal) (j : Fin N)
    (h : ∀ l, a l = a' l) : lin a w b j = lin a' w b j := by
  rw [funext h]

/-- The normalization at `(p, k)` of a block `P`: the element over the root of its row's sum of squares plus the stabilizer. -/
theorem norm_apply (P : FVec Ideal S1024x64 .f32) (hr : S1024x64.Reduces [1] S1024) (hφ : FKind.Formats .f32)
    (hacc : (0x00000000#32 : BitVec 32) = 0x00000000#32) (hs : S1024.ShapeCasts S1024x1) (hb : S1024x1.Broadcasts S1024x64)
    (p : Fin 1024) (k : Fin 64) :
    divf P (broadcastTo S1024x64 (addf (sqrt (shapeCast S1024x1 (multiReduction (F := Ideal) .add [1] S1024 (mulf P P) 0x00000000#32 hr hφ hacc) hs))
        (broadcast S1024x1 (Scalar.ofBits (F := Ideal) .f32 0x2B8CBCCC#32))) hb) (ix2 p k)
      = normRow (fun j => P (ix2 p j)) k := by
  rw [divf_apply, broadcastTo_a1_ab_apply, addf_apply, sqrt_apply, shapeCast_a_a1_apply, rowSum_apply, broadcast_apply]
  rfl

/-- The first stored value (the perceptron's output block) at row `p`, unit `k`. -/
theorem pay1_apply (x0 : Vec Ideal S1024x256 .f32) (x1 : Vec Ideal S512x256 .f32) (x2 : Vec Ideal S512 .f32)
    (x3 : Vec Ideal S256x512 .f32) (x4 : Vec Ideal S256 .f32) (x5 : Vec Ideal S64x256 .f32) (x6 : Vec Ideal S64 .f32)
    (p : Fin 1024) (k : Fin 64) :
    k0_pay1 (F := Ideal) x0 x1 x2 x3 x4 x5 x6 (ix2 p k)
      = outRow (fun l => x0 (ix2 p l)) (fun a l => x1 (ix2 a l)) (fun a => x2 (ix1 a)) (fun a l => x3 (ix2 a l))
          (fun a => x4 (ix1 a)) (fun a l => x5 (ix2 a l)) (fun a => x6 (ix1 a)) k := by
  unfold k0_pay1 outRow
  refine (layerC_apply _ _ _ _ _ _ _ p k).trans (lin_congr _ _ _ _ _ fun l => ?_)
  refine (tanh_apply _ _).trans (congrArg Ideal.tanh ?_)
  refine (layerB_apply _ _ _ _ _ _ _ p l).trans (lin_congr _ _ _ _ _ fun m => ?_)
  refine (tanh_apply _ _).trans (congrArg Ideal.tanh ?_)
  exact layerA_apply _ _ _ _ _ _ _ p m

/-- The second stored value (the normalized block) at row `p`, unit `k`. -/
theorem pay2_apply (x0 : Vec Ideal S1024x256 .f32) (x1 : Vec Ideal S512x256 .f32) (x2 : Vec Ideal S512 .f32)
    (x3 : Vec Ideal S256x512 .f32) (x4 : Vec Ideal S256 .f32) (x5 : Vec Ideal S64x256 .f32) (x6 : Vec Ideal S64 .f32)
    (p : Fin 1024) (k : Fin 64) :
    k0_pay2 (F := Ideal) x0 x1 x2 x3 x4 x5 x6 (ix2 p k)
      = normRow (outRow (fun l => x0 (ix2 p l)) (fun a l => x1 (ix2 a l)) (fun a => x2 (ix1 a)) (fun a l => x3 (ix2 a l))
          (fun a => x4 (ix1 a)) (fun a l => x5 (ix2 a l)) (fun a => x6 (ix1 a))) k := by
  unfold k0_pay2
  refine (norm_apply _ _ _ _ _ _ p k).trans ?_
  exact congrArg (fun o => normRow o k) (funext fun j => pay1_apply x0 x1 x2 x3 x4 x5 x6 p j)

end Cert.KernelIdeal.Val

end
-- ==== Proof.KIVal1.lean ====
/- The pairwise kernel's stored value read at an index of the block, at the extended reals: for the query row at
   batch position `r` it is the sum of the `out` rows adjacent to it. -/
import proofs.«166473_j65481071400810_1_alg».proof.Proof.Gen.KernelIdeal.Skeleton
import proofs.«166473_j65481071400810_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx Cert.Spec

/-! ## The two products read at an index -/

theorem lhs_mm1_0 (i : S256x8192.Idx) (q : dot_S256x64_S64x8192_S256x8192_1_0_0_1_n_n.contr.Idx) :
    (dot_S256x64_S64x8192_S256x8192_1_0_0_1_n_n.lhsIdx i q 0).val = (i 0).val := by
  unfold DotDims.lhsIdx
  rw [dif_neg (show ¬(0 : Fin S256x64.rank) ∈ dot_S256x64_S64x8192_S256x8192_1_0_0_1_n_n.lhsBatch by decide), dif_pos (show (0 : Fin S256x64.rank) ∈ dot_S256x64_S64x8192_S256x8192_1_0_0_1_n_n.lhsNonContracting by decide)]
  rfl
theorem lhs_mm1_1 (i : S256x8192.Idx) (q : dot_S256x64_S64x8192_S256x8192_1_0_0_1_n_n.contr.Idx) :
    (dot_S256x64_S64x8192_S256x8192_1_0_0_1_n_n.lhsIdx i q 1).val = (q ⟨0, by decide⟩).val :=
  dot_S256x64_S64x8192_S256x8192_1_0_0_1_n_n.lhsIdx_val_of_single rfl i q
theorem rhs_mm1_0 (i : S256x8192.Idx) (q : dot_S256x64_S64x8192_S256x8192_1_0_0_1_n_n.contr.Idx) :
    (dot_S256x64_S64x8192_S256x8192_1_0_0_1_n_n.rhsIdx i q 0).val = (q ⟨0, by decide⟩).val :=
  dot_S256x64_S64x8192_S256x8192_1_0_0_1_n_n.rhsIdx_val_of_single rfl i q
theorem rhs_mm1_1 (i : S256x8192.Idx) (q : dot_S256x64_S64x8192_S256x8192_1_0_0_1_n_n.contr.Idx) :
    (dot_S256x64_S64x8192_S256x8192_1_0_0_1_n_n.rhsIdx i q 1).val = (i 1).val := by
  unfold DotDims.rhsIdx
  rw [dif_neg (show ¬(1 : Fin S64x8192.rank) ∈ dot_S256x64_S64x8192_S256x8192_1_0_0_1_n_n.rhsBatch by decide), dif_pos (show (1 : Fin S64x8192.rank) ∈ dot_S256x64_S64x8192_S256x8192_1_0_0_1_n_n.rhsNonContracting by decide)]
  rfl

/-- The first product at row `p`, column `j`: the inner product of row `p` of the left factor with column `j` of the right. -/
theorem mm1_apply (a : FVec Ideal S256x64 .bf16) (b : FVec Ideal S64x8192 .bf16) (p : Fin 256) (j : Fin 8192) :
    matmul dot_S256x64_S64x8192_S256x8192_1_0_0_1_n_n none a b (constant (F := Ideal) S256x8192 .f32 0x00000000#32) (ix2 p j)
      = ∑ k' : Fin 64, a (ix2 p k') * b (ix2 k' j) := by
  simp only [matmul]
  rw [Ideal.matmul_constant_zero_apply, ← Equiv.sum_comp (contrEquiv1 dot_S256x64_S64x8192_S256x8192_1_0_0_1_n_n 64 rfl rfl).symm]
  refine Finset.sum_congr rfl fun k' _ => ?_
  have hk := contrEquiv1_symm_val dot_S256x64_S64x8192_S256x8192_1_0_0_1_n_n 64 rfl rfl k'
  have el : dot_S256x64_S64x8192_S256x8192_1_0_0_1_n_n.lhsIdx (ix2 p j) ((contrEquiv1 dot_S256x64_S64x8192_S256x8192_1_0_0_1_n_n 64 rfl rfl).symm k') = ix2 p k' := funext fun a => Fin.ext (by
    match a with
    | ⟨0, _⟩ => exact lhs_mm1_0 _ _
    | ⟨1, _⟩ => exact (lhs_mm1_1 _ _).trans hk)
  have er : dot_S256x64_S64x8192_S256x8192_1_0_0_1_n_n.rhsIdx (ix2 p j) ((contrEquiv1 dot_S256x64_S64x8192_S256x8192_1_0_0_1_n_n 64 rfl rfl).symm k') = ix2 k' j := funext fun a => Fin.ext (by
    match a with
    | ⟨0, _⟩ => exact (rhs_mm1_0 _ _).trans hk
    | ⟨1, _⟩ => exact rhs_mm1_1 _ _)
  rw [el, er]

theorem lhs_mm2_0 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
theorem lhs_mm2_1 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
theorem rhs_mm2_0 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
theorem rhs_mm2_1 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl

/-- The second product at row `p`, unit `k`: the sum over all rows `j` of the weight at `(p, j)` times row `j` at unit `k`. -/
theorem mm2_apply (a : FVec Ideal S256x8192 .bf16) (b : FVec Ideal S8192x64 .bf16) (p : Fin 256) (k : Fin 64) :
    matmul dot_S256x8192_S8192x64_S256x64_1_0_0_1_n_n none a b (constant (F := Ideal) S256x64 .f32 0x00000000#32) (ix2 p k)
      = ∑ j : Fin 8192, a (ix2 p j) * b (ix2 j k) := by
  simp only [matmul]
  rw [Ideal.matmul_constant_zero_apply, ← Equiv.sum_comp (contrEquiv1 dot_S256x8192_S8192x64_S256x64_1_0_0_1_n_n 8192 rfl rfl).symm]
  refine Finset.sum_congr rfl fun j _ => ?_
  have hk := contrEquiv1_symm_val dot_S256x8192_S8192x64_S256x64_1_0_0_1_n_n 8192 rfl rfl j
  have el : dot_S256x8192_S8192x64_S256x64_1_0_0_1_n_n.lhsIdx (ix2 p k) ((contrEquiv1 dot_S256x8192_S8192x64_S256x64_1_0_0_1_n_n 8192 rfl rfl).symm j) = ix2 p j := funext fun a => Fin.ext (by
    match a with
    | ⟨0, _⟩ => exact lhs_mm2_0 _ _
    | ⟨1, _⟩ => exact (lhs_mm2_1 _ _).trans hk)
  have er : dot_S256x8192_S8192x64_S256x64_1_0_0_1_n_n.rhsIdx (ix2 p k) ((contrEquiv1 dot_S256x8192_S8192x64_S256x64_1_0_0_1_n_n 8192 rfl rfl).symm j) = ix2 j k := funext fun a => Fin.ext (by
    match a with
    | ⟨0, _⟩ => exact (rhs_mm2_0 _ _).trans hk
    | ⟨1, _⟩ => exact rhs_mm2_1 _ _)
  rw [el, er]

/-! ## The 32-bit words of the row and the column number -/

/-- For a grid point `g < 32`, a block row `p < 256` and a column `j < 8192`, the word `g·256 + p` is the word `j` exactly when the numbers agree: nothing wraps. -/
theorem word_eq_iff (g p j : Nat) (hg : g < 32) (hp : p < 256) (hj : j < 8192) :
    (BitVec.ofNat 32 g * 256#32 + BitVec.ofNat 32 p = BitVec.ofNat 32 j) ↔ g * 256 + p = j := by
  constructor
  · intro h
    have h' := congrArg BitVec.toNat h
    simp only [BitVec.toNat_add, BitVec.toNat_mul, BitVec.toNat_ofNat] at h'
    omega
  · intro h
    subst h
    apply BitVec.eq_of_toNat_eq
    simp only [BitVec.toNat_add, BitVec.toNat_mul, BitVec.toNat_ofNat]
    omega

/-- A one-bit word widened to 32 bits and read signed is the bit. -/
theorem toInt_setWidth_bit (b : BitVec 1) : (b.setWidth 32).toInt = (b.toNat : ℤ) := by
  rcases BitVec.eq_zero_or_eq_one b with h | h <;> subst h <;> decide

theorem bit_cast (b : BitVec 1) : (((b.setWidth 32).toInt : ℝ) : EReal) = ((b.toNat : ℝ) : EReal) := by
  rw [toInt_setWidth_bit, Int.cast_natCast]

/-- The row number's word at `(p, j)`: the splat of `c` plus the block row. -/
theorem rowWord_apply (c : BitVec 32) (h1 : S256x1.Iotas .tc 32 [0]) (h2 : S256x1.Broadcasts S256x8192) (p : Fin 256) (j : Fin 8192) :
    broadcastTo S256x8192 (addi (broadcast S256x1 c) (iota .tc S256x1 32 [0] h1)) h2 (ix2 p j) = c + BitVec.ofNat 32 p.val := by
  refine (broadcastTo_apply _ h2 (ix2 p j) (ix2 p (0 : Fin 1)) (fun a => match a with
    | ⟨0, _⟩ => by show p.val = if (256 : Nat) = 1 then 0 else p.val; rw [if_neg (by decide)]
    | ⟨1, _⟩ => by show 0 = if (1 : Nat) = 1 then 0 else j.val; rw [if_pos rfl])).trans ?_
  show IntOp.addi c (iota .tc S256x1 32 [0] h1 (ix2 p (0 : Fin 1))) = _
  rw [iota_single_apply]
  rfl

/-- The column number's word at `(p, j)`. -/
theorem colWord_apply (h1 : S1x8192.Iotas .tc 32 [1]) (h2 : S1x8192.Broadcasts S256x8192) (p : Fin 256) (j : Fin 8192) :
    broadcastTo S256x8192 (iota .tc S1x8192 32 [1] h1) h2 (ix2 p j) = BitVec.ofNat 32 j.val := by
  refine (broadcastTo_apply _ h2 (ix2 p j) (ix2 (0 : Fin 1) j) (fun a => match a with
    | ⟨0, _⟩ => by show 0 = if (1 : Nat) = 1 then 0 else p.val; rw [if_pos rfl]
    | ⟨1, _⟩ => by show j.val = if (8192 : Nat) = 1 then 0 else j.val; rw [if_neg (by decide)])).trans ?_
  rw [iota_single_apply]

/-- The diagonal mask at `(p, j)`: set exactly when column `j` is the batch position `r` of block row `p`. -/
theorem diag_apply (g : Nat) (hg : g < 32) (h1 : S256x1.Iotas .tc 32 [0]) (h2 : S256x1.Broadcasts S256x8192)
    (h3 : S1x8192.Iotas .tc 32 [1]) (h4 : S1x8192.Broadcasts S256x8192) (p : Fin 256) (j r : Fin 8192) (hr : r.val = g * 256 + p.val) :
    cmpi .eq (broadcastTo S256x8192 (addi (broadcast S256x1 (Scalar.muli (BitVec.ofNat 32 g) 256#32)) (iota .tc S256x1 32 [0] h1)) h2)
      (broadcastTo S256x8192 (iota .tc S1x8192 32 [1] h3) h4) (ix2 p j) = if r = j then 1#1 else 0#1 := by
  show IntOp.cmpi .eq (broadcastTo S256x8192 (addi (broadcast S256x1 (Scalar.muli (BitVec.ofNat 32 g) 256#32)) (iota .tc S256x1 32 [0] h1)) h2 (ix2 p j))
      (broadcastTo S256x8192 (iota .tc S1x8192 32 [1] h3) h4 (ix2 p j)) = _
  rw [rowWord_apply, colWord_apply]
  show BitVec.ofBool (BitVec.ofNat 32 g * 256#32 + BitVec.ofNat 32 p.val == BitVec.ofNat 32 j.val) = _
  by_cases h : r = j
  · rw [if_pos h]
    have : BitVec.ofNat 32 g * 256#32 + BitVec.ofNat 32 p.val = BitVec.ofNat 32 j.val :=
      (word_eq_iff g p.val j.val hg p.isLt j.isLt).2 (by rw [← hr, h])
    rw [this, beq_self_eq_true]; rfl
  · rw [if_neg h]
    have : ¬ BitVec.ofNat 32 g * 256#32 + BitVec.ofNat 32 p.val = BitVec.ofNat 32 j.val := fun e =>
      h (Fin.ext (hr.trans ((word_eq_iff g p.val j.val hg p.isLt j.isLt).1 e)))
    rw [beq_eq_false_iff_ne.2 this]; rfl

/-! ## The score, the weight and the stored value -/

/-- The score at `(p, j)`: the inner product of query row `p` with normalized row `j`. -/
theorem score_apply (x0 : Vec Ideal S256x64 .f32) (x1 : Vec Ideal S8192x64 .f32)
    (hc0 : S256x64.ShapeCasts S256x64) (hc1 : S8192x64.ShapeCasts S8192x64) (hb : FTy.bits .bf16 < FTy.bits .f32)
    (ht : S8192x64.Transposes [1, 0] S64x8192) (p : Fin 256) (j : Fin 8192) :
    matmul dot_S256x64_S64x8192_S256x8192_1_0_0_1_n_n none (truncf .bf16 (shapeCast S256x64 x0 hc0) hb)
        (transpose S64x8192 [1, 0] (truncf .bf16 (shapeCast S8192x64 x1 hc1) hb) ht) (constant (F := Ideal) S256x8192 .f32 0x00000000#32) (ix2 p j)
      = dot64 (fun k' => x0 (ix2 p k')) (fun k' => x1 (ix2 j k')) := by
  refine (mm1_apply _ _ p j).trans ?_
  unfold dot64
  refine Finset.sum_congr rfl fun k' _ => ?_
  rw [shapeCast_self, shapeCast_self, truncf_apply,
    transpose_apply [1, 0] _ ht (ix2 k' j) (ix2 j k') (fun b => match b with
      | ⟨0, _⟩ => rfl
      | ⟨1, _⟩ => rfl), truncf_apply]

/-- The stored value at block row `p`, unit `k`, when the block's row `p` stands at batch position `r` (grid point times 256 plus `p`). -/
theorem pay_apply (i : grid1.Coords) (x0 : Vec Ideal S256x64 .f32) (x1 x2 : Vec Ideal S8192x64 .f32)
    (p : Fin 256) (k : Fin 64) (r : Fin 8192) (hr : r.val = (i 0).val * 256 + p.val) :
    k1_pay1 (F := Ideal) i x0 x1 x2 (ix2 p k)
      = aggRow (fun k' => x0 (ix2 p k')) (fun j k' => x1 (ix2 j k')) (fun j k' => x2 (ix2 j k')) r k := by
  have hg : (i 0).val < 32 := (i 0).isLt
  unfold k1_pay1
  refine (mm2_apply _ _ p k).trans ?_
  unfold aggRow
  refine Finset.sum_congr rfl fun j _ => ?_
  refine congrArg₂ (· * ·) ?_ (by rw [truncf_apply, shapeCast_self])
  rw [truncf_apply, select_apply, diag_apply (i 0).val hg _ _ _ _ p j r hr]
  unfold adjRow
  by_cases h : r = j
  · rw [if_pos h, if_pos h, select_one, broadcast_apply]
    exact Ideal.ofBits_zero_f32
  · rw [if_neg h, if_neg h, select_zero, sitofp_apply, extui_apply, cmpf_apply, mulf_apply, broadcast_apply, score_apply]
    exact bit_cast _

end Cert.KernelIdeal.Val

end
-- ==== Proof.KIArrays.lean ====
/- The kernel's three written arrays as whole-array functions of the arguments, at the extended reals. Each call
   writes its output block by block; point `t` of the perceptron call writes rows `1024 t … 1024 t + 1023` of the
   output and of the normalized rows, each row the specification's row function of the same row of the input; point
   `t` of the pairwise call writes rows `256 t … 256 t + 255` of the result, each the aggregate of its query row.
   The blocks tile the arrays, so the arrays end holding the specification's functions. -/
import proofs.«166473_j65481071400810_1_alg».proof.Proof.KIRun
import proofs.«166473_j65481071400810_1_alg».proof.Proof.KIVal0
import proofs.«166473_j65481071400810_1_alg».proof.Proof.KIVal1
import proofs.«166473_j65481071400810_1_alg».proof.Proof.Spec
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Fr Cert.KernelIdeal.Val
open Idealize.ShloMosaic Idealize.ShloMosaic.TcCoe Idealize.ShloMosaic.ValueIdx
open Idealize.SL Idealize.SL.Sem
open Idealize.ShloMosaic.Pipeline (Dat Cfg Window)
open Cert.Spec

variable (m : (ℓ : Loc nD τ sig) → Buf (Elt Ideal) ℓ)

/-! ## The arguments, and the two intermediate arrays, by name -/

abbrev aX (c : Dev nD) : A2 8192 256 := m ((c : Thread nD τ).loc main_arg0)
abbrev aW1 (c : Dev nD) : A2 512 256 := m ((c : Thread nD τ).loc main_arg1)
abbrev aB1 (c : Dev nD) : A1 512 := m ((c : Thread nD τ).loc main_arg2)
abbrev aW2 (c : Dev nD) : A2 256 512 := m ((c : Thread nD τ).loc main_arg3)
abbrev aB2 (c : Dev nD) : A1 256 := m ((c : Thread nD τ).loc main_arg4)
abbrev aW3 (c : Dev nD) : A2 64 256 := m ((c : Thread nD τ).loc main_arg5)
abbrev aB3 (c : Dev nD) : A1 64 := m ((c : Thread nD τ).loc main_arg6)
/-- The perceptron's output on the batch, and its normalized rows. -/
def aO (c : Dev nD) : A2 8192 64 := outArr (aX m c) (aW1 m c) (aB1 m c) (aW2 m c) (aB2 m c) (aW3 m c) (aB3 m c)
def aN (c : Dev nD) : A2 8192 64 := normArr (aO m c)

theorem hz : (![0, 0] : Fin 2 → Nat) = fun _ => 0 := funext fun a => by fin_cases a <;> rfl
theorem hz1 : (![0] : Fin 1 → Nat) = fun _ => 0 := funext fun a => by fin_cases a <;> rfl

/-! ## The perceptron call -/

/-- The index maps over the grid: the input rows and both outputs move with the point, the weights and biases stay. -/
theorem idx0 : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- The input blocks at a point, at their literal types. -/
abbrev b0_0 (c : Dev nD) (t : Fin cfg0.N) : Vec Ideal S1024x256 .f32 := iblk0 (V1 m) c 0 t
abbrev b0_1 (c : Dev nD) (t : Fin cfg0.N) : Vec Ideal S512x256 .f32 := iblk0 (V1 m) c 1 t
abbrev b0_2 (c : Dev nD) (t : Fin cfg0.N) : Vec Ideal S512 .f32 := iblk0 (V1 m) c 2 t
abbrev b0_3 (c : Dev nD) (t : Fin cfg0.N) : Vec Ideal S256x512 .f32 := iblk0 (V1 m) c 3 t
abbrev b0_4 (c : Dev nD) (t : Fin cfg0.N) : Vec Ideal S256 .f32 := iblk0 (V1 m) c 4 t
abbrev b0_5 (c : Dev nD) (t : Fin cfg0.N) : Vec Ideal S64x256 .f32 := iblk0 (V1 m) c 5 t
abbrev b0_6 (c : Dev nD) (t : Fin cfg0.N) : Vec Ideal S64 .f32 := iblk0 (V1 m) c 6 t

/-- Row `p` of the input block at point `t` is row `1024 t + p` of the input. -/
theorem row0_0 (c : Dev nD) (t : Fin cfg0.N) (p : Fin 1024) (r : Fin 8192) (hr : r.val = t.val * 1024 + p.val) :
    (fun l : Fin 256 => b0_0 m c t (ix2 p l)) = mat (aX m c) r := by
  funext l
  show m ((c : Thread nD τ).loc main_arg0) (((cfg0.win 0).blk t).view.emb (ix2 p l)) = m ((c : Thread nD τ).loc main_arg0) (ix2 r l)
  obtain ⟨e0, e1, -⟩ := idx0 t
  refine congrArg _ (funext fun a => Fin.ext ?_)
  match a with
  | ⟨0, _⟩ => show win0_0.index t (0 : Fin 2) * 1024 + 1 * p.val = r.val; omega
  | ⟨1, _⟩ => show win0_0.index t (1 : Fin 2) * 256 + 1 * l.val = l.val; omega

theorem blk0_1 (c : Dev nD) (t : Fin cfg0.N) : (fun (a : Fin 512) (l : Fin 256) => b0_1 m c t (ix2 a l)) = mat (aW1 m c) := by
  funext a l
  show m ((c : Thread nD τ).loc main_arg1) (((cfg0.win 1).blk t).view.emb (ix2 a l)) = m ((c : Thread nD τ).loc main_arg1) (ix2 a l)
  obtain ⟨-, -, -, -, -, -, e0, e1, -⟩ := idx0 t
  refine congrArg _ (funext fun d => Fin.ext ?_)
  match d with
  | ⟨0, _⟩ => show win0_1.index t (0 : Fin 2) * 512 + 1 * a.val = a.val; omega
  | ⟨1, _⟩ => show win0_1.index t (1 : Fin 2) * 256 + 1 * l.val = l.val; omega

theorem blk0_2 (c : Dev nD) (t : Fin cfg0.N) : (fun (a : Fin 512) => b0_2 m c t (ix1 a)) = vec (aB1 m c) := by
  funext a
  show m ((c : Thread nD τ).loc main_arg2) (((cfg0.win 2).blk t).view.emb (ix1 a)) = m ((c : Thread nD τ).loc main_arg2) (ix1 a)
  obtain ⟨-, -, -, -, -, -, -, -, e0, -⟩ := idx0 t
  refine congrArg _ (funext fun d => Fin.ext ?_)
  match d with
  | ⟨0, _⟩ => show win0_2.index t (0 : Fin 1) * 512 + 1 * a.val = a.val; omega

theorem blk0_3 (c : Dev nD) (t : Fin cfg0.N) : (fun (a : Fin 256) (l : Fin 512) => b0_3 m c t (ix2 a l)) = mat (aW2 m c) := by
  funext a l
  show m ((c : Thread nD τ).loc main_arg3) (((cfg0.win 3).blk t).view.emb (ix2 a l)) = m ((c : Thread nD τ).loc main_arg3) (ix2 a l)
  obtain ⟨-, -, -, -, -, -, -, -, -, e0, e1, -⟩ := idx0 t
  refine congrArg _ (funext fun d => Fin.ext ?_)
  match d with
  | ⟨0, _⟩ => show win0_3.index t (0 : Fin 2) * 256 + 1 * a.val = a.val; omega
  | ⟨1, _⟩ => show win0_3.index t (1 : Fin 2) * 512 + 1 * l.val = l.val; omega

theorem blk0_4 (c : Dev nD) (t : Fin cfg0.N) : (fun (a : Fin 256) => b0_4 m c t (ix1 a)) = vec (aB2 m c) := by
  funext a
  show m ((c : Thread nD τ).loc main_arg4) (((cfg0.win 4).blk t).view.emb (ix1 a)) = m ((c : Thread nD τ).loc main_arg4) (ix1 a)
  obtain ⟨-, -, -, -, -, -, -, -, -, -, -, e0, -⟩ := idx0 t
  refine congrArg _ (funext fun d => Fin.ext ?_)
  match d with
  | ⟨0, _⟩ => show win0_4.index t (0 : Fin 1) * 256 + 1 * a.val = a.val; omega

theorem blk0_5 (c : Dev nD) (t : Fin cfg0.N) : (fun (a : Fin 64) (l : Fin 256) => b0_5 m c t (ix2 a l)) = mat (aW3 m c) := by
  funext a l
  show m ((c : Thread nD τ).loc main_arg5) (((cfg0.win 5).blk t).view.emb (ix2 a l)) = m ((c : Thread nD τ).loc main_arg5) (ix2 a l)
  obtain ⟨-, -, -, -, -, -, -, -, -, -, -, -, e0, e1, -⟩ := idx0 t
  refine congrArg _ (funext fun d => Fin.ext ?_)
  match d with
  | ⟨0, _⟩ => show win0_5.index t (0 : Fin 2) * 64 + 1 * a.val = a.val; omega
  | ⟨1, _⟩ => show win0_5.index t (1 : Fin 2) * 256 + 1 * l.val = l.val; omega

theorem blk0_6 (c : Dev nD) (t : Fin cfg0.N) : (fun (a : Fin 64) => b0_6 m c t (ix1 a)) = vec (aB3 m c) := by
  funext a
  show m ((c : Thread nD τ).loc main_arg6) (((cfg0.win 6).blk t).view.emb (ix1 a)) = m ((c : Thread nD τ).loc main_arg6) (ix1 a)
  obtain ⟨-, -, -, -, -, -, -, -, -, -, -, -, -, -, e0⟩ := idx0 t
  refine congrArg _ (funext fun d => Fin.ext ?_)
  match d with
  | ⟨0, _⟩ => show win0_6.index t (0 : Fin 1) * 64 + 1 * a.val = a.val; omega

/-- Where block-row `p`, unit `k` of an output block at point `t` sits in the output array. -/
theorem emb7 (t : Fin cfg0.N) (p : Fin 1024) (k : Fin 64) (r : Fin 8192) (hr : r.val = t.val * 1024 + p.val) :
    ((cfg0.win 7).blk t).view.emb (ix2 p k) = ix2 r k := by
  obtain ⟨-, -, e0, e1, -⟩ := idx0 t
  refine funext fun a => Fin.ext ?_
  match a with
  | ⟨0, _⟩ => show win0_7.index t (0 : Fin 2) * 1024 + 1 * p.val = r.val; omega
  | ⟨1, _⟩ => show win0_7.index t (1 : Fin 2) * 64 + 1 * k.val = k.val; omega
theorem emb8 (t : Fin cfg0.N) (p : Fin 1024) (k : Fin 64) (r : Fin 8192) (hr : r.val = t.val * 1024 + p.val) :
    ((cfg0.win 8).blk t).view.emb (ix2 p k) = ix2 r k := by
  obtain ⟨-, -, -, -, e0, e1, -⟩ := idx0 t
  refine funext fun a => Fin.ext ?_
  match a with
  | ⟨0, _⟩ => show win0_8.index t (0 : Fin 2) * 1024 + 1 * p.val = r.val; omega
  | ⟨1, _⟩ => show win0_8.index t (1 : Fin 2) * 64 + 1 * k.val = k.val; omega

theorem row_lt0 (t : Fin cfg0.N) (p : Fin 1024) : t.val * 1024 + p.val < 8192 := by
  have := t.isLt; have h8 : cfg0.N = 8 := N_0; have := p.isLt; omega

/-- WHAT POINT `t` WRITES BACK to the output is block `t` of the perceptron's output array. -/
theorem flushed7_eq (c : Dev nD) (t : Fin cfg0.N) :
    (dat0 (V1 m) c).flushed 7 t = ((cfg0.win 7).blk t).view.read (Elt Ideal) (aO m c) := by
  show (cfg0.win 7).cut (grid0.coords t) ((dat0 (V1 m) c).after 7 t) = _
  rw [after0_7]
  unfold out0_7
  rw [View.canon_unit_zero hz]
  simp only [View.ld_unit_zero (S := S1024x256) hz, View.ld_unit_zero (S := S512x256) hz, View.ld_unit_zero (S := S512) hz1,
    View.ld_unit_zero (S := S256x512) hz, View.ld_unit_zero (S := S256) hz1, View.ld_unit_zero (S := S64x256) hz,
    View.ld_unit_zero (S := S64) hz1]
  funext j
  obtain ⟨p, k, rfl⟩ : ∃ (p : Fin 1024) (k : Fin 64), j = ix2 p k := ⟨j 0, j 1, eq_ix2 j⟩
  show k0_pay1 (F := Ideal) (b0_0 m c t) (b0_1 m c t) (b0_2 m c t) (b0_3 m c t) (b0_4 m c t) (b0_5 m c t) (b0_6 m c t) (ix2 p k)
    = aO m c (((cfg0.win 7).blk t).view.emb (ix2 p k))
  rw [emb7 t p k ⟨t.val * 1024 + p.val, row_lt0 t p⟩ rfl]
  refine (pay1_apply (b0_0 m c t) (b0_1 m c t) (b0_2 m c t) (b0_3 m c t) (b0_4 m c t) (b0_5 m c t) (b0_6 m c t) p k).trans ?_
  rw [row0_0 m c t p ⟨t.val * 1024 + p.val, row_lt0 t p⟩ rfl, blk0_1, blk0_2, blk0_3, blk0_4, blk0_5, blk0_6]
  rfl

/-- … and to the normalized rows, block `t` of the normalized array. -/
theorem flushed8_eq (c : Dev nD) (t : Fin cfg0.N) :
    (dat0 (V1 m) c).flushed 8 t = ((cfg0.win 8).blk t).view.read (Elt Ideal) (aN m c) := by
  show (cfg0.win 8).cut (grid0.coords t) ((dat0 (V1 m) c).after 8 t) = _
  rw [after0_8]
  unfold out0_8
  rw [View.canon_unit_zero hz]
  simp only [View.ld_unit_zero (S := S1024x256) hz, View.ld_unit_zero (S := S512x256) hz, View.ld_unit_zero (S := S512) hz1,
    View.ld_unit_zero (S := S256x512) hz, View.ld_unit_zero (S := S256) hz1, View.ld_unit_zero (S := S64x256) hz,
    View.ld_unit_zero (S := S64) hz1]
  funext j
  obtain ⟨p, k, rfl⟩ : ∃ (p : Fin 1024) (k : Fin 64), j = ix2 p k := ⟨j 0, j 1, eq_ix2 j⟩
  show k0_pay2 (F := Ideal) (b0_0 m c t) (b0_1 m c t) (b0_2 m c t) (b0_3 m c t) (b0_4 m c t) (b0_5 m c t) (b0_6 m c t) (ix2 p k)
    = aN m c (((cfg0.win 8).blk t).view.emb (ix2 p k))
  rw [emb8 t p k ⟨t.val * 1024 + p.val, row_lt0 t p⟩ rfl]
  refine (pay2_apply (b0_0 m c t) (b0_1 m c t) (b0_2 m c t) (b0_3 m c t) (b0_4 m c t) (b0_5 m c t) (b0_6 m c t) p k).trans ?_
  rw [row0_0 m c t p ⟨t.val * 1024 + p.val, row_lt0 t p⟩ rfl, blk0_1, blk0_2, blk0_3, blk0_4, blk0_5, blk0_6]
  rfl

/-- An index of the output array is in point `t`'s block iff each coordinate is in the block's range on its axis. -/
theorem mem_blk7 (t : Fin cfg0.N) (i : S8192x64.Idx) :
    i ∈ ((cfg0.win 7).blk t).view.set ↔ ∀ a : Fin 2, win0_7.index t a * S1024x64.size a ≤ (i a).val ∧ (i a).val < win0_7.index t a * S1024x64.size a + S1024x64.size a := by
  show i ∈ ((View.whole main_v0_0).slice (win0_7.rect t)).set ↔ _
  rw [View.set_slice_whole, Rect.mem_set_unit]
  exact Iff.rfl
theorem mem_blk8 (t : Fin cfg0.N) (i : S8192x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v0_1).slice (win0_8.rect t)).set ↔ _
  rw [View.set_slice_whole, Rect.mem_set_unit]
  exact Iff.rfl

/-- The blocks tile the arrays: row `r` is in the block of point `r / 1024`. -/
theorem cover7 (i : S8192x64.Idx) : ∃ t : Fin cfg0.N, (cfg0.win 7).flush t = true ∧ i ∈ ((cfg0.win 7).blk t).view.set := by
  have hi0 : (i 0).val < 8192 := (i 0).isLt
  have hi1 : (i 1).val < 64 := (i 1).isLt
  have h8 : cfg0.N = 8 := N_0
  refine ⟨⟨(i 0).val / 1024, by omega⟩, flush0_7 _, ?_⟩
  rw [mem_blk7]
  obtain ⟨-, -, e0, e1, -⟩ := idx0 ⟨(i 0).val / 1024, by omega⟩
  intro a
  match a with
  | ⟨0, _⟩ => show win0_7.index _ (0 : Fin 2) * 1024 ≤ (i 0).val ∧ (i 0).val < win0_7.index _ (0 : Fin 2) * 1024 + 1024; rw [e0]; show (i 0).val / 1024 * 1024 ≤ _ ∧ _ < (i 0).val / 1024 * 1024 + 1024; omega
  | ⟨1, _⟩ => show win0_7.index _ (1 : Fin 2) * 64 ≤ (i 1).val ∧ (i 1).val < win0_7.index _ (1 : Fin 2) * 64 + 64; rw [e1]; omega
theorem cover8 (i : S8192x64.Idx) : ∃ t : Fin cfg0.N, (cfg0.win 8).flush t = true ∧ i ∈ ((cfg0.win 8).blk t).view.set := by
  have hi0 : (i 0).val < 8192 := (i 0).isLt
  have hi1 : (i 1).val < 64 := (i 1).isLt
  have h8 : cfg0.N = 8 := N_0
  refine ⟨⟨(i 0).val / 1024, by omega⟩, flush0_8 _, ?_⟩
  rw [mem_blk8]
  obtain ⟨-, -, -, -, e0, e1, -⟩ := idx0 ⟨(i 0).val / 1024, by omega⟩
  intro a
  match a with
  | ⟨0, _⟩ => show win0_8.index _ (0 : Fin 2) * 1024 ≤ (i 0).val ∧ (i 0).val < win0_8.index _ (0 : Fin 2) * 1024 + 1024; rw [e0]; show (i 0).val / 1024 * 1024 ≤ _ ∧ _ < (i 0).val / 1024 * 1024 + 1024; omega
  | ⟨1, _⟩ => show win0_8.index _ (1 : Fin 2) * 64 ≤ (i 1).val ∧ (i 1).val < win0_8.index _ (1 : Fin 2) * 64 + 64; rw [e1]; omega

/-- The two arrays after the perceptron call. -/
theorem final7 (c : Dev nD) : (dat0 (V1 m) c).arrAt 7 cfg0.N = aO m c :=
  (dat0 (V1 m) c).arrAt_eq_of_cover 7 (aO m c) (fun t _ => flushed7_eq m c t) cover7
theorem final8 (c : Dev nD) : (dat0 (V1 m) c).arrAt 8 cfg0.N = aN m c :=
  (dat0 (V1 m) c).arrAt_eq_of_cover 8 (aN m c) (fun t _ => flushed8_eq m c t) cover8

/-! ## The pairwise call -/

/-- The index maps over the grid: the query rows and the result move with the point, the two whole arrays stay. -/
theorem idx1 : ∀ t : Fin cfg1.N,
    win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ ((grid1.coords t) 0).val = t.val :=
  (by decide +kernel : ∀ t : Fin grid1.N, _)

/-- The two arrays the pairwise call finds are what the perceptron call left. -/
theorem V2_n (c : Dev nD) : V2 m c main_v0_1 = aN m c := (W2_arr m c 8).trans (final8 m c)
theorem V2_o (c : Dev nD) : V2 m c main_v0_0 = aO m c := (W2_arr m c 7).trans (final7 m c)

abbrev b1_0 (c : Dev nD) (t : Fin cfg1.N) : Vec Ideal S256x64 .f32 := iblk1 (V2 m) c 0 t
abbrev b1_1 (c : Dev nD) (t : Fin cfg1.N) : Vec Ideal S8192x64 .f32 := iblk1 (V2 m) c 1 t
abbrev b1_2 (c : Dev nD) (t : Fin cfg1.N) : Vec Ideal S8192x64 .f32 := iblk1 (V2 m) c 2 t

/-- Row `p` of the query block at point `t` is row `256 t + p` of the normalized rows. -/
theorem row1_0 (c : Dev nD) (t : Fin cfg1.N) (p : Fin 256) (r : Fin 8192) (hr : r.val = t.val * 256 + p.val) :
    (fun k' : Fin 64 => b1_0 m c t (ix2 p k')) = mat (aN m c) r := by
  funext k'
  show V2 m c main_v0_1 (((cfg1.win 0).blk t).view.emb (ix2 p k')) = aN m c (ix2 r k')
  rw [V2_n]
  obtain ⟨e0, e1, -⟩ := idx1 t
  refine congrArg _ (funext fun a => Fin.ext ?_)
  match a with
  | ⟨0, _⟩ => show win1_0.index t (0 : Fin 2) * 256 + 1 * p.val = r.val; omega
  | ⟨1, _⟩ => show win1_0.index t (1 : Fin 2) * 64 + 1 * k'.val = k'.val; omega

theorem blk1_1 (c : Dev nD) (t : Fin cfg1.N) : (fun (j : Fin 8192) (k' : Fin 64) => b1_1 m c t (ix2 j k')) = mat (aN m c) := by
  funext j k'
  show V2 m c main_v0_1 (((cfg1.win 1).blk t).view.emb (ix2 j k')) = aN m c (ix2 j k')
  rw [V2_n]
  obtain ⟨-, -, -, -, e0, e1, -⟩ := idx1 t
  refine congrArg _ (funext fun a => Fin.ext ?_)
  match a with
  | ⟨0, _⟩ => show win1_1.index t (0 : Fin 2) * 8192 + 1 * j.val = j.val; omega
  | ⟨1, _⟩ => show win1_1.index t (1 : Fin 2) * 64 + 1 * k'.val = k'.val; omega

theorem blk1_2 (c : Dev nD) (t : Fin cfg1.N) : (fun (j : Fin 8192) (k' : Fin 64) => b1_2 m c t (ix2 j k')) = mat (aO m c) := by
  funext j k'
  show V2 m c main_v0_0 (((cfg1.win 2).blk t).view.emb (ix2 j k')) = aO m c (ix2 j k')
  rw [V2_o]
  obtain ⟨-, -, -, -, -, -, e0, e1, -⟩ := idx1 t
  refine congrArg _ (funext fun a => Fin.ext ?_)
  match a with
  | ⟨0, _⟩ => show win1_2.index t (0 : Fin 2) * 8192 + 1 * j.val = j.val; omega
  | ⟨1, _⟩ => show win1_2.index t (1 : Fin 2) * 64 + 1 * k'.val = k'.val; omega

theorem emb3 (t : Fin cfg1.N) (p : Fin 256) (k : Fin 64) (r : Fin 8192) (hr : r.val = t.val * 256 + p.val) :
    ((cfg1.win 3).blk t).view.emb (ix2 p k) = ix2 r k := by
  obtain ⟨-, -, e0, e1, -⟩ := idx1 t
  refine funext fun a => Fin.ext ?_
  match a with
  | ⟨0, _⟩ => show win1_3.index t (0 : Fin 2) * 256 + 1 * p.val = r.val; omega
  | ⟨1, _⟩ => show win1_3.index t (1 : Fin 2) * 64 + 1 * k.val = k.val; omega

theorem row_lt1 (t : Fin cfg1.N) (p : Fin 256) : t.val * 256 + p.val < 8192 := by
  have := t.isLt; have h32 : cfg1.N = 32 := N_1; have := p.isLt; omega

/-- WHAT POINT `t` WRITES BACK to the result is block `t` of the aggregation array. -/
theorem flushed3_eq (c : Dev nD) (t : Fin cfg1.N) :
    (dat1 (V2 m) c).flushed 3 t = ((cfg1.win 3).blk t).view.read (Elt Ideal) (aggArr (aN m c) (aO m c)) := by
  show (cfg1.win 3).cut (grid1.coords t) ((dat1 (V2 m) c).after 3 t) = _
  rw [after1_3]
  unfold out1_3
  rw [View.canon_unit_zero hz]
  simp only [View.ld_unit_zero (S := S256x64) hz, View.ld_unit_zero (S := S8192x64) hz]
  funext j
  obtain ⟨p, k, rfl⟩ : ∃ (p : Fin 256) (k : Fin 64), j = ix2 p k := ⟨j 0, j 1, eq_ix2 j⟩
  show k1_pay1 (F := Ideal) (grid1.coords t) (b1_0 m c t) (b1_1 m c t) (b1_2 m c t) (ix2 p k)
    = aggArr (aN m c) (aO m c) (((cfg1.win 3).blk t).view.emb (ix2 p k))
  rw [emb3 t p k ⟨t.val * 256 + p.val, row_lt1 t p⟩ rfl]
  refine (pay_apply (grid1.coords t) (b1_0 m c t) (b1_1 m c t) (b1_2 m c t) p k ⟨t.val * 256 + p.val, row_lt1 t p⟩
    (by show t.val * 256 + p.val = ((grid1.coords t) 0).val * 256 + p.val; rw [(idx1 t).2.2.2.2.2.2.2.2])).trans ?_
  rw [row1_0 m c t p ⟨t.val * 256 + p.val, row_lt1 t p⟩ rfl, blk1_1, blk1_2]
  rfl

theorem mem_blk3 (t : Fin cfg1.N) (i : S8192x64.Idx) :
    i ∈ ((cfg1.win 3).blk t).view.set ↔ ∀ a : Fin 2, win1_3.index t a * S256x64.size a ≤ (i a).val ∧ (i a).val < win1_3.index t a * S256x64.size a + S256x64.size a := by
  show i ∈ ((View.whole main_v1).slice (win1_3.rect t)).set ↔ _
  rw [View.set_slice_whole, Rect.mem_set_unit]
  exact Iff.rfl

/-- The blocks tile the result: row `r` is in the block of point `r / 256`. -/
theorem cover3 (i : S8192x64.Idx) : ∃ t : Fin cfg1.N, (cfg1.win 3).flush t = true ∧ i ∈ ((cfg1.win 3).blk t).view.set := by
  have hi0 : (i 0).val < 8192 := (i 0).isLt
  have hi1 : (i 1).val < 64 := (i 1).isLt
  have h32 : cfg1.N = 32 := N_1
  refine ⟨⟨(i 0).val / 256, by omega⟩, flush1_3 _, ?_⟩
  rw [mem_blk3]
  obtain ⟨-, -, e0, e1, -⟩ := idx1 ⟨(i 0).val / 256, by omega⟩
  intro a
  match a with
  | ⟨0, _⟩ => show win1_3.index _ (0 : Fin 2) * 256 ≤ (i 0).val ∧ (i 0).val < win1_3.index _ (0 : Fin 2) * 256 + 256; rw [e0]; show (i 0).val / 256 * 256 ≤ _ ∧ _ < (i 0).val / 256 * 256 + 256; omega
  | ⟨1, _⟩ => show win1_3.index _ (1 : Fin 2) * 64 ≤ (i 1).val ∧ (i 1).val < win1_3.index _ (1 : Fin 2) * 64 + 64; rw [e1]; omega

/-- The result array after the pairwise call: the specification's `result` of the seven arguments. -/
theorem final3 (c : Dev nD) : (dat1 (V2 m) c).arrAt 3 cfg1.N
    = result (aX m c) (aW1 m c) (aB1 m c) (aW2 m c) (aB2 m c) (aW3 m c) (aB3 m c) :=
  (dat1 (V2 m) c).arrAt_eq_of_cover 3 (aggArr (aN m c) (aO m c)) (fun t _ => flushed3_eq m c t) cover3

/-- THE KERNEL'S RUN AT THE EXTENDED REALS: the result at the specification's function of the arguments, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v1) = result (aX m c) (aW1 m c) (aB1 m c) (aW2 m c) (aB2 m c) (aW3 m c) (aB3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v1 (by decide))).trans ((W4_res m c).trans (final3 m c)),
     (h c _ (mem_uc main_arg0 (by decide))).trans (W4_arg m c 0 rfl (by decide)),
     (h c _ (mem_uc main_arg1 (by decide))).trans (W4_arg m c 1 rfl (by decide)),
     (h c _ (mem_uc main_arg2 (by decide))).trans (W4_arg m c 2 rfl (by decide)),
     (h c _ (mem_uc main_arg3 (by decide))).trans (W4_arg m c 3 rfl (by decide)),
     (h c _ (mem_uc main_arg4 (by decide))).trans (W4_arg m c 4 rfl (by decide)),
     (h c _ (mem_uc main_arg5 (by decide))).trans (W4_arg m c 5 rfl (by decide)),
     (h c _ (mem_uc main_arg6 (by decide))).trans (W4_arg m c 6 rfl (by decide))⟩)
    (run_all m ρ)

end Cert.KernelIdeal.Arr

end
-- ==== Proof.RefVal.lean ====
/- The reference's result, read index by index through its operations, is the specification's function of the arguments. -/
import proofs.«166473_j65481071400810_1_alg».proof.Proof.Gen.ReferenceIdeal.Read
import proofs.«166473_j65481071400810_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx Cert.Spec

section layers

variable (x0 : (⟨S8192x256, .f32⟩ : BufTy).Contents (Elt Ideal)) (x1 : (⟨S512x256, .f32⟩ : BufTy).Contents (Elt Ideal))
    (x2 : (⟨S512, .f32⟩ : BufTy).Contents (Elt Ideal)) (x3 : (⟨S256x512, .f32⟩ : BufTy).Contents (Elt Ideal))
    (x4 : (⟨S256, .f32⟩ : BufTy).Contents (Elt Ideal)) (x5 : (⟨S64x256, .f32⟩ : BufTy).Contents (Elt Ideal))
    (x6 : (⟨S64, .f32⟩ : BufTy).Contents (Elt Ideal))

/-- The first hidden layer at row `r`, unit `i`. -/
theorem v5_at (r : Fin 8192) (i : Fin 512) :
    val_main_v5 (F := Ideal) x0 x1 x2 (ix2 r i) = Ideal.tanh (lin (mat x0 r) (mat x1) (vec x2) i) := by
  rw [val_main_v5_apply, val_main_v4_apply, val_main_v1_apply, val_main_v3_apply, val_main_v2_apply,
    Ideal.hostUnary_tanh_def, Ideal.addf_def]
  unfold lin
  refine congrArg Ideal.tanh (congrArg₂ (· + ·) (Finset.sum_congr rfl fun k _ => ?_) ?_)
  · rw [val_main_v0_apply]
    refine congrArg₂ (· * ·) (congrArg x0 ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x2 (funext fun a => Fin.ext (by match a with | ⟨0, _⟩ => rfl))

/-- The second hidden layer at row `r`, unit `j`. -/
theorem v11_at (r : Fin 8192) (j : Fin 256) :
    val_main_v11 (F := Ideal) x0 x1 x2 x3 x4 (ix2 r j)
      = Ideal.tanh (lin (fun i => Ideal.tanh (lin (mat x0 r) (mat x1) (vec x2) i)) (mat x3) (vec x4) j) := by
  rw [val_main_v11_apply, val_main_v10_apply, val_main_v7_apply, val_main_v9_apply, val_main_v8_apply,
    Ideal.hostUnary_tanh_def, Ideal.addf_def]
  unfold lin
  refine congrArg Ideal.tanh (congrArg₂ (· + ·) (Finset.sum_congr rfl fun k _ => ?_) ?_)
  · rw [val_main_v6_apply]
    refine congrArg₂ (· * ·) ?_ (congrArg x3 ?_)
    · refine (congrArg (val_main_v5 (F := Ideal) x0 x1 x2) ?_).trans (v5_at x0 x1 x2 r k)
      exact funext fun a => Fin.ext (by match a with | ⟨0, _⟩ => rfl | ⟨1, _⟩ => rfl)
    · exact funext fun a => Fin.ext (by match a with | ⟨0, _⟩ => rfl | ⟨1, _⟩ => rfl)
  · exact congrArg x4 (funext fun a => Fin.ext (by match a with | ⟨0, _⟩ => rfl))

/-- The perceptron's output at row `r`, unit `k`. -/
theorem v16_at (r : Fin 8192) (k : Fin 64) :
    val_main_v16 (F := Ideal) x0 x1 x2 x3 x4 x5 x6 (ix2 r k)
      = outRow (mat x0 r) (mat x1) (vec x2) (mat x3) (vec x4) (mat x5) (vec x6) k := by
  rw [val_main_v16_apply, val_main_v13_apply, val_main_v15_apply, val_main_v14_apply, Ideal.addf_def]
  unfold outRow
  conv_rhs => unfold lin
  refine congrArg₂ (· + ·) (Finset.sum_congr rfl fun j _ => ?_) ?_
  · rw [val_main_v12_apply]
    refine congrArg₂ (· * ·) ?_ (congrArg x5 ?_)
    · refine (congrArg (val_main_v11 (F := Ideal) x0 x1 x2 x3 x4) ?_).trans (v11_at x0 x1 x2 x3 x4 r j)
      exact funext fun a => Fin.ext (by match a with | ⟨0, _⟩ => rfl | ⟨1, _⟩ => rfl)
    · exact funext fun a => Fin.ext (by match a with | ⟨0, _⟩ => rfl | ⟨1, _⟩ => rfl)
  · exact congrArg x6 (funext fun a => Fin.ext (by match a with | ⟨0, _⟩ => rfl))

/-- The perceptron's output as an array is the specification's. -/
theorem v16_eq : val_main_v16 (F := Ideal) x0 x1 x2 x3 x4 x5 x6 = outArr x0 x1 x2 x3 x4 x5 x6 := by
  funext i
  obtain ⟨r, k, rfl⟩ : ∃ (r : Fin 8192) (k : Fin 64), i = ix2 r k := ⟨i 0, i 1, eq_ix2 i⟩
  rw [v16_at, outArr_apply]

/-- The normalized rows: each output row over its Euclidean norm plus the stabilizer. -/
theorem v21_at (r : Fin 8192) (k : Fin 64) :
    val_main_v21 (F := Ideal) x0 x1 x2 x3 x4 x5 x6 (ix2 r k)
      = normRow (mat (val_main_v16 (F := Ideal) x0 x1 x2 x3 x4 x5 x6) r) k := by
  rw [val_main_v21_apply, val_main_v20_apply, val_main_v19_apply, val_main_v17_apply, val_main_call0_v2_apply,
    val_main_call0_v1_apply, val_main_v18_apply, val_main_cst_apply, val_main_call0_cst_apply,
    Ideal.hostDivf_def, Ideal.addf_def, Ideal.hostUnary_sqrt_def]
  simp only [Ideal.ofBits_def]
  rw [Ideal.ofBits_zero_f32, zero_add]
  unfold normRow
  refine congrArg (Ideal.div _) (congrArg (· + eps) (congrArg Ideal.sqrt (Finset.sum_congr rfl fun j _ => ?_)))
  rw [val_main_call0_v0_apply, Ideal.mulf_def]
  have e : idx_main_call0_v1 (idx_main_call0_v2 (idx_main_v20 (ix2 r k))) j = ix2 r j :=
    funext fun a => Fin.ext (by match a with | ⟨0, _⟩ => rfl | ⟨1, _⟩ => rfl)
  rw [e]

theorem v21_eq : val_main_v21 (F := Ideal) x0 x1 x2 x3 x4 x5 x6 = normArr (outArr x0 x1 x2 x3 x4 x5 x6) := by
  funext i
  obtain ⟨r, k, rfl⟩ : ∃ (r : Fin 8192) (k : Fin 64), i = ix2 r k := ⟨i 0, i 1, eq_ix2 i⟩
  rw [v21_at, normArr_apply, v16_eq]

/-- The pattern of the float one. -/
theorem one_word : Ideal.ofBits .f32 0x3F800000#32 = 1 := by
  rw [show (1 : EReal) = ((1 : ℝ) : EReal) by norm_cast]
  simp [Ideal.ofBits, Ideal.ieee, -EReal.coe_mul]; norm_num

/-- The two position words of a pair of rows are equal exactly on the diagonal. -/
theorem diag_word (r j : Fin 8192) :
    IntOp.cmpi .eq (IntOp.addi (BitVec.ofNat 32 r.val) 0#32) (BitVec.ofNat 32 j.val) = if r = j then 1#1 else 0#1 := by
  unfold IntOp.cmpi IntOp.addi
  rw [BitVec.add_zero]
  by_cases h : r = j
  · subst h; simp
  · rw [if_neg h]
    have hne : BitVec.ofNat 32 r.val ≠ BitVec.ofNat 32 j.val := by
      intro e
      have e' := congrArg BitVec.toNat e
      simp only [BitVec.toNat_ofNat] at e'
      rw [Nat.mod_eq_of_lt (by omega), Nat.mod_eq_of_lt (by omega)] at e'
      exact h (Fin.ext e')
    rw [beq_eq_false_iff_ne.mpr hne]; rfl

/-- A zero-or-one weight times one minus the diagonal indicator. -/
theorem mask_mul (c : BitVec 1) (r j : Fin 8192) :
    (((c.toNat : ℝ) : EReal)) * ((1 : EReal) - ((((if r = j then 1#1 else 0#1 : BitVec 1).toNat : ℝ)) : EReal))
      = if r = j then 0 else (((c.toNat : ℝ)) : EReal) := by
  by_cases h : r = j
  · rw [if_pos h, if_pos h]
    have : ((1 : EReal) - ((((1#1 : BitVec 1).toNat : ℝ)) : EReal)) = 0 := by
      rw [show (1 : EReal) = ((1 : ℝ) : EReal) by norm_cast, ← EReal.coe_sub]
      norm_num
    rw [this, mul_zero]
  · rw [if_neg h, if_neg h]
    have : ((1 : EReal) - ((((0#1 : BitVec 1).toNat : ℝ)) : EReal)) = 1 := by
      rw [show (1 : EReal) = ((1 : ℝ) : EReal) by norm_cast, ← EReal.coe_sub]
      norm_num
    rw [this, mul_one]

/-- The adjacency weights: the thresholded squared inner product of two normalized rows, off the diagonal. -/
theorem v36_at (r j : Fin 8192) :
    val_main_v36 (F := Ideal) x0 x1 x2 x3 x4 x5 x6 (ix2 r j)
      = adjRow (mat (val_main_v21 (F := Ideal) x0 x1 x2 x3 x4 x5 x6) r) (mat (val_main_v21 (F := Ideal) x0 x1 x2 x3 x4 x5 x6)) r j := by
  rw [val_main_v36_apply, val_main_v27_apply, val_main_v26_apply, val_main_v24_apply, val_main_v23_apply,
    val_main_v25_apply, val_main_cst_0_apply, val_main_v35_apply, val_main_v34_apply, val_main_cst_1_apply,
    val_main_v33_apply, val_main_v32_apply, val_main_v31_apply, val_main_v28_apply, val_main_v29_apply,
    val_main_v30_apply, val_main_c_apply, Ideal.mulf_def, Ideal.mulf_def, Ideal.subf_def]
  simp only [Ideal.ofBits_def]
  rw [one_word]
  have ed := diag_word r j
  have es : (∑ k : Fin 64, (val_main_v21 (F := Ideal) x0 x1 x2 x3 x4 x5 x6) (lidx_main_v23 (ix2 r j) k)
        * (val_main_v22 (F := Ideal) x0 x1 x2 x3 x4 x5 x6) (ridx_main_v23 (ix2 r j) k))
      = dot64 (mat (val_main_v21 (F := Ideal) x0 x1 x2 x3 x4 x5 x6) r) (mat (val_main_v21 (F := Ideal) x0 x1 x2 x3 x4 x5 x6) j) := by
    unfold dot64
    refine Finset.sum_congr rfl fun k _ => ?_
    rw [val_main_v22_apply]
    refine congrArg₂ (· * ·) (congrArg _ ?_) (congrArg _ ?_)
    · exact funext fun a => Fin.ext (by match a with | ⟨0, _⟩ => rfl | ⟨1, _⟩ => rfl)
    · exact funext fun a => Fin.ext (by match a with | ⟨0, _⟩ => rfl | ⟨1, _⟩ => rfl)
  rw [es]
  unfold adjRow hit
  exact (congrArg (fun w : BitVec 1 => _ * ((1 : EReal) - (((w.toNat : ℝ)) : EReal))) ed).trans (mask_mul _ r j)

end layers

/-- The reference's last stage is the specification's `result` of the seven arguments. -/
theorem ref_eq (x0 : (⟨S8192x256, .f32⟩ : BufTy).Contents (Elt Ideal)) (x1 : (⟨S512x256, .f32⟩ : BufTy).Contents (Elt Ideal))
    (x2 : (⟨S512, .f32⟩ : BufTy).Contents (Elt Ideal)) (x3 : (⟨S256x512, .f32⟩ : BufTy).Contents (Elt Ideal))
    (x4 : (⟨S256, .f32⟩ : BufTy).Contents (Elt Ideal)) (x5 : (⟨S64x256, .f32⟩ : BufTy).Contents (Elt Ideal))
    (x6 : (⟨S64, .f32⟩ : BufTy).Contents (Elt Ideal)) :
    val_main_v37 (F := Ideal) x0 x1 x2 x3 x4 x5 x6 = result x0 x1 x2 x3 x4 x5 x6 := by
  funext i
  obtain ⟨r, k, rfl⟩ : ∃ (r : Fin 8192) (k : Fin 64), i = ix2 r k := ⟨i 0, i 1, eq_ix2 i⟩
  unfold result
  rw [aggArr_apply, val_main_v37_apply, ← v21_eq, ← v16_eq]
  unfold aggRow
  refine Finset.sum_congr rfl fun j _ => ?_
  refine congrArg₂ (· * ·) ?_ (congrArg _ ?_)
  · refine (congrArg (val_main_v36 (F := Ideal) x0 x1 x2 x3 x4 x5 x6) ?_).trans (v36_at x0 x1 x2 x3 x4 x5 x6 r j)
    exact funext fun a => Fin.ext (by match a with | ⟨0, _⟩ => rfl | ⟨1, _⟩ => rfl)
  · exact funext fun a => Fin.ext (by match a with | ⟨0, _⟩ => rfl | ⟨1, _⟩ => rfl)

end Cert.ReferenceIdeal.RefVal

end
-- ==== Proof.lean ====
/- The certificate of a two-call kernel — a three-layer tanh perceptron with row normalization, then the
   thresholded pairwise-fidelity aggregation of its outputs — against the plain reference.

   The mathematics. Both programs send a batch row `x` to `out = W3 · tanh (W2 · tanh (W1 · x + b1) + b2) + b3` and
   `n = out / (√(∑ out²) + ε)`; row `r` of the result is `∑_{j ≠ r, (n r · n j)² ≥ θ} out j`. On the extended reals the
   kernel's bf16 casts are the identity, its matrix products and the reference's are the same sums, the kernel's
   mask `select (row = column) 0 a` and the reference's `a · (1 − [row = column])` agree because `a` is `0` or `1`,
   and the words `ε` and `θ` are the same on both sides; no finiteness of the inputs is used.

   The parts. Each printed program's frame is a run of two pipelined regions (the modules KIRegion0, KIRegion1,
   KIShare, KIRun for the idealized program and their copies in the word-level program's namespace): the body of each
   call run symbolically, the second call's two windows on one array holding that array's share in halves. At the
   extended reals the run's three written arrays are read as whole-array functions (KIVal0, KIVal1, KIArrays) of the
   specification (Spec), and the reference's operations, read index by index, compute the same function (RefVal). -/
import proofs.«166473_j65481071400810_1_alg».proof.Defs
import proofs.«166473_j65481071400810_1_alg».proof.Proof.Gen.Kernel
import proofs.«166473_j65481071400810_1_alg».proof.Proof.Gen.KernelIdeal
import proofs.«166473_j65481071400810_1_alg».proof.Proof.Gen.ReferenceIdeal
import proofs.«166473_j65481071400810_1_alg».proof.Proof.Gen.Pre_finite_inputs
import proofs.«166473_j65481071400810_1_alg».proof.Proof.Gen.ReferenceIdeal.Run
import proofs.«166473_j65481071400810_1_alg».proof.Proof.Gen.ReferenceIdeal.Read
import proofs.«166473_j65481071400810_1_alg».proof.Proof.KRun
import proofs.«166473_j65481071400810_1_alg».proof.Proof.KIRun
import proofs.«166473_j65481071400810_1_alg».proof.Proof.KIArrays
import proofs.«166473_j65481071400810_1_alg».proof.Proof.RefVal
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Fr.frame m ρ

/-- So does the idealized program. -/
theorem frame_ki : Cert.frame_KernelIdeal := fun m ρ _ => Cert.KernelIdeal.Fr.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the extended reals the kernel's result array and the reference's are the specification's `result` of the
    arguments, which agree. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefVal.ref_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
